-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x82x10 : Shape := ⟨3, ![4096, 82, 10]⟩
abbrev S4096x82x82 : Shape := ⟨3, ![4096, 82, 82]⟩
abbrev S10x15 : Shape := ⟨2, ![10, 15]⟩
abbrev S15 : Shape := ⟨1, ![15]⟩
abbrev S15x15 : Shape := ⟨2, ![15, 15]⟩
abbrev S1230x300 : Shape := ⟨2, ![1230, 300]⟩
abbrev S300 : Shape := ⟨1, ![300]⟩
abbrev S300x29 : Shape := ⟨2, ![300, 29]⟩
abbrev S29 : Shape := ⟨1, ![29]⟩
abbrev S_ : Shape := ⟨0, ![]⟩

class Facts : Prop where
  bcast_S_S4096x82x10 : S_.BroadcastsInDim S4096x82x10 (![] : Fin 0 → Fin S4096x82x10.rank)
  reducesTo_S4096x82x10_S_d0_1_2 : S4096x82x10.ReducesTo [0, 1, 2] S_
  h_S_ : 0 < S_.numel
  bcast_S_S4096x82x82 : S_.BroadcastsInDim S4096x82x82 (![] : Fin 0 → Fin S4096x82x82.rank)
  reducesTo_S4096x82x82_S_d0_1_2 : S4096x82x82.ReducesTo [0, 1, 2] S_
  bcast_S_S10x15 : S_.BroadcastsInDim S10x15 (![] : Fin 0 → Fin S10x15.rank)
  reducesTo_S10x15_S_d0_1 : S10x15.ReducesTo [0, 1] S_
  bcast_S_S15 : S_.BroadcastsInDim S15 (![] : Fin 0 → Fin S15.rank)
  reducesTo_S15_S_d0 : S15.ReducesTo [0] S_
  bcast_S_S15x15 : S_.BroadcastsInDim S15x15 (![] : Fin 0 → Fin S15x15.rank)
  reducesTo_S15x15_S_d0_1 : S15x15.ReducesTo [0, 1] S_
  bcast_S_S1230x300 : S_.BroadcastsInDim S1230x300 (![] : Fin 0 → Fin S1230x300.rank)
  reducesTo_S1230x300_S_d0_1 : S1230x300.ReducesTo [0, 1] S_
  bcast_S_S300 : S_.BroadcastsInDim S300 (![] : Fin 0 → Fin S300.rank)
  reducesTo_S300_S_d0 : S300.ReducesTo [0] S_
  bcast_S_S300x29 : S_.BroadcastsInDim S300x29 (![] : Fin 0 → Fin S300x29.rank)
  reducesTo_S300x29_S_d0_1 : S300x29.ReducesTo [0, 1] S_
  bcast_S_S29 : S_.BroadcastsInDim S29 (![] : Fin 0 → Fin S29.rank)
  reducesTo_S29_S_d0 : S29.ReducesTo [0] S_

variable [Facts]

def fn_part2 {F : FTy → Type} [FloatOps F] (main_arg7 : FVec F S300 .f32) (main_arg8 : FVec F S300x29 .f32) (main_arg9 : FVec F S29 .f32) (main_v33 : IVec S_ 1) : IVec S_ 1 :=
  let main_v34 : FVec F S300 .f32 := Host.absf main_arg7
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300x29 .f32 := Host.absf main_arg8
  let main_cst_14 : FVec F S_ .f32 := constant S_ .f32 0x7F800000#32
  let main_v40 : FVec F S300x29 .f32 := broadcastInDim S300x29 ![] bcast_S_S300x29 main_cst_14
  let main_v41 : IVec S300x29 1 := cmpf .olt main_v39 main_v40
  let main_c_15 : IVec S_ 1 := constantI S_ 1 1#1
  let main_v42 : IVec S_ 1 := (fun x v => Host.reduce IntOp.andi x v reducesTo_S300x29_S_d0_1 h_S_) main_v41 main_c_15
  let main_v43 : IVec S_ 1 := andi main_v38 main_v42
  let main_v44 : FVec F S29 .f32 := Host.absf main_arg9
  let main_cst_16 : FVec F S_ .f32 := constant S_ .f32 0x7F800000#32
  let main_v45 : FVec F S29 .f32 := broadcastInDim S29 ![] bcast_S_S29 main_cst_16
  let main_v46 : IVec S29 1 := cmpf .olt main_v44 main_v45
  let main_c_17 : IVec S_ 1 := constantI S_ 1 1#1
  let main_v47 : IVec S_ 1 := (fun x v => Host.reduce IntOp.andi x v reducesTo_S29_S_d0 h_S_) main_v46 main_c_17
  let main_v48 : IVec S_ 1 := andi main_v43 main_v47
  main_v48

def fn_part1 {F : FTy → Type} [FloatOps F] (main_arg4 : FVec F S15x15 .f32) (main_arg5 : FVec F S15 .f32) (main_arg6 : FVec F S1230x300 .f32) (main_arg7 : FVec F S300 .f32) (main_arg8 : FVec F S300x29 .f32) (main_arg9 : FVec F S29 .f32) (main_v13 : IVec S_ 1) (main_v16 : IVec S15 1) : IVec S_ 1 :=
  let main_c_5 : IVec S_ 1 := constantI S_ 1 1#1
  let main_v17 : IVec S_ 1 := (fun x v => Host.reduce IntOp.andi x v reducesTo_S15_S_d0 h_S_) main_v16 main_c_5
  let main_v18 : IVec S_ 1 := andi main_v13 main_v17
  let main_v19 : FVec F S15x15 .f32 := Host.absf main_arg4
  let main_cst_6 : FVec F S_ .f32 := constant S_ .f32 0x7F800000#32
  let main_v20 : FVec F S15x15 .f32 := broadcastInDim S15x15 ![] bcast_S_S15x15 main_cst_6
  let main_v21 : IVec S15x15 1 := cmpf .olt main_v19 main_v20
  let main_c_7 : IVec S_ 1 := constantI S_ 1 1#1
  let main_v22 : IVec S_ 1 := (fun x v => Host.reduce IntOp.andi x v reducesTo_S15x15_S_d0_1 h_S_) main_v21 main_c_7
  let main_v23 : IVec S_ 1 := andi main_v18 main_v22
  let main_v24 : FVec F S15 .f32 := Host.absf main_arg5
  let main_cst_8 : FVec F S_ .f32 := constant S_ .f32 0x7F800000#32
  let main_v25 : FVec F S15 .f32 := broadcastInDim S15 ![] bcast_S_S15 main_cst_8
  let main_v26 : IVec S15 1 := cmpf .olt main_v24 main_v25
  let main_c_9 : IVec S_ 1 := constantI S_ 1 1#1
  let main_v27 : IVec S_ 1 := (fun x v => Host.reduce IntOp.andi x v reducesTo_S15_S_d0 h_S_) main_v26 main_c_9
  let main_v28 : IVec S_ 1 := andi main_v23 main_v27
  let main_v29 : FVec F S1230x300 .f32 := Host.absf main_arg6
  let main_cst_10 : FVec F S_ .f32 := constant S_ .f32 0x7F800000#32
  let main_v30 : FVec F S1230x300 .f32 := broadcastInDim S1230x300 ![] bcast_S_S1230x300 main_cst_10
  let main_v31 : IVec S1230x300 1 := cmpf .olt main_v29 main_v30
  let main_c_11 : IVec S_ 1 := constantI S_ 1 1#1
  let main_v32 : IVec S_ 1 := (fun x v => Host.reduce IntOp.andi x v reducesTo_S1230x300_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x82x10 .f32) (main_arg1 : FVec F S4096x82x82 .f32) (main_arg2 : FVec F S10x15 .f32) (main_arg3 : FVec F S15 .f32) (main_arg4 : FVec F S15x15 .f32) (main_arg5 : FVec F S15 .f32) (main_arg6 : FVec F S1230x300 .f32) (main_arg7 : FVec F S300 .f32) (main_arg8 : FVec F S300x29 .f32) (main_arg9 : FVec F S29 .f32) : IVec S_ 1 :=
  let main_v0 : FVec F S4096x82x10 .f32 := Host.absf main_arg0
  let main_cst : FVec F S_ .f32 := constant S_ .f32 0x7F800000#32
  let main_v1 : FVec F S4096x82x10 .f32 := broadcastInDim S4096x82x10 ![] bcast_S_S4096x82x10 main_cst
  let main_v2 : IVec S4096x82x10 1 := cmpf .olt main_v0 main_v1
  let main_c : IVec S_ 1 := constantI S_ 1 1#1
  let main_v3 : IVec S_ 1 := (fun x v => Host.reduce IntOp.andi x v reducesTo_S4096x82x10_S_d0_1_2 h_S_) main_v2 main_c
  let main_v4 : FVec F S4096x82x82 .f32 := Host.absf main_arg1
  let main_cst_0 : FVec F S_ .f32 := constant S_ .f32 0x7F800000#32
  let main_v5 : FVec F S4096x82x82 .f32 := broadcastInDim S4096x82x82 ![] bcast_S_S4096x82x82 main_cst_0
  let main_v6 : IVec S4096x82x82 1 := cmpf .olt main_v4 main_v5
  let main_c_1 : IVec S_ 1 := constantI S_ 1 1#1
  let main_v7 : IVec S_ 1 := (fun x v => Host.reduce IntOp.andi x v reducesTo_S4096x82x82_S_d0_1_2 h_S_) main_v6 main_c_1
  let main_v8 : IVec S_ 1 := andi main_v3 main_v7
  let main_v9 : FVec F S10x15 .f32 := Host.absf main_arg2
  let main_cst_2 : FVec F S_ .f32 := constant S_ .f32 0x7F800000#32
  let main_v10 : FVec F S10x15 .f32 := broadcastInDim S10x15 ![] bcast_S_S10x15 main_cst_2
  let main_v11 : IVec S10x15 1 := cmpf .olt main_v9 main_v10
  let main_c_3 : IVec S_ 1 := constantI S_ 1 1#1
  let main_v12 : IVec S_ 1 := (fun x v => Host.reduce IntOp.andi x v reducesTo_S10x15_S_d0_1 h_S_) main_v11 main_c_3
  let main_v13 : IVec S_ 1 := andi main_v8 main_v12
  let main_v14 : FVec F S15 .f32 := Host.absf main_arg3
  let main_cst_4 : FVec F S_ .f32 := constant S_ .f32 0x7F800000#32
  let main_v15 : FVec F S15 .f32 := broadcastInDim S15 ![] bcast_S_S15 main_cst_4
  let main_v16 : IVec S15 1 := cmpf .olt main_v14 main_v15
  fn_part1 (F := F) main_arg4 main_arg5 main_arg6 main_arg7 main_arg8 main_arg9 main_v13 main_v16
-- ==== Kernel.lean ====
abbrev S4096x82x10 : Shape := ⟨3, ![4096, 82, 10]⟩
abbrev S4096x82x82 : Shape := ⟨3, ![4096, 82, 82]⟩
abbrev S10x15 : Shape := ⟨2, ![10, 15]⟩
abbrev S15 : Shape := ⟨1, ![15]⟩
abbrev S15x15 : Shape := ⟨2, ![15, 15]⟩
abbrev S1230x300 : Shape := ⟨2, ![1230, 300]⟩
abbrev S300 : Shape := ⟨1, ![300]⟩
abbrev S300x29 : Shape := ⟨2, ![300, 29]⟩
abbrev S29 : Shape := ⟨1, ![29]⟩
abbrev S1x15 : Shape := ⟨2, ![1, 15]⟩
abbrev S1x300 : Shape := ⟨2, ![1, 300]⟩
abbrev S1x29 : Shape := ⟨2, ![1, 29]⟩
abbrev S4096x82x15 : Shape := ⟨3, ![4096, 82, 15]⟩
abbrev S16x82x10 : Shape := ⟨3, ![16, 82, 10]⟩
abbrev S16x82x15 : Shape := ⟨3, ![16, 82, 15]⟩
abbrev S1x82x10 : Shape := ⟨3, ![1, 82, 10]⟩
abbrev S82x10 : Shape := ⟨2, ![82, 10]⟩
abbrev S82x15 : Shape := ⟨2, ![82, 15]⟩
abbrev S1x82x15 : Shape := ⟨3, ![1, 82, 15]⟩
abbrev S16x82x82 : Shape := ⟨3, ![16, 82, 82]⟩
abbrev S1x82x82 : Shape := ⟨3, ![1, 82, 82]⟩
abbrev S82x82 : Shape := ⟨2, ![82, 82]⟩
abbrev S4096x1230 : Shape := ⟨2, ![4096, 1230]⟩
abbrev S4096x29 : Shape := ⟨2, ![4096, 29]⟩
abbrev S512x1230 : Shape := ⟨2, ![512, 1230]⟩
abbrev S512x29 : Shape := ⟨2, ![512, 29]⟩
abbrev S512x300 : Shape := ⟨2, ![512, 300]⟩

abbrev nBuf : Space → Nat
  | .hbm => 22
  | .vmem => 28
  | .smem => 0
  | _ => 0

abbrev bufTy : (tb : Table) → Fin (tcTables nBuf tb) → BufTy
  | .hbm, ⟨0, _⟩ => ⟨S4096x82x10, .f32⟩
  | .hbm, ⟨1, _⟩ => ⟨S4096x82x82, .f32⟩
  | .hbm, ⟨2, _⟩ => ⟨S10x15, .f32⟩
  | .hbm, ⟨3, _⟩ => ⟨S15, .f32⟩
  | .hbm, ⟨4, _⟩ => ⟨S15x15, .f32⟩
  | .hbm, ⟨5, _⟩ => ⟨S15, .f32⟩
  | .hbm, ⟨6, _⟩ => ⟨S1230x300, .f32⟩
  | .hbm, ⟨7, _⟩ => ⟨S300, .f32⟩
  | .hbm, ⟨8, _⟩ => ⟨S300x29, .f32⟩
  | .hbm, ⟨9, _⟩ => ⟨S29, .f32⟩
  | .hbm, ⟨10, _⟩ => ⟨S1x15, .f32⟩
  | .hbm, ⟨11, _⟩ => ⟨S1x15, .f32⟩
  | .hbm, ⟨12, _⟩ => ⟨S1x300, .f32⟩
  | .hbm, ⟨13, _⟩ => ⟨S1x29, .f32⟩
  | .hbm, ⟨14, _⟩ => ⟨S15x15, .bf16⟩
  | .hbm, ⟨15, _⟩ => ⟨S1230x300, .bf16⟩
  | .hbm, ⟨16, _⟩ => ⟨S300x29, .bf16⟩
  | .hbm, ⟨17, _⟩ => ⟨S4096x82x15, .bf16⟩
  | .hbm, ⟨18, _⟩ => ⟨S4096x82x15, .bf16⟩
  | .hbm, ⟨19, _⟩ => ⟨S4096x82x15, .f32⟩
  | .hbm, ⟨20, _⟩ => ⟨S4096x1230, .f32⟩
  | .hbm, ⟨21, _⟩ => ⟨S4096x29, .f32⟩
  | .local _ .vmem, ⟨0, _⟩ => ⟨S16x82x10, .f32⟩
  | .local _ .vmem, ⟨1, _⟩ => ⟨S16x82x10, .f32⟩
  | .local _ .vmem, ⟨2, _⟩ => ⟨S10x15, .f32⟩
  | .local _ .vmem, ⟨3, _⟩ => ⟨S16x82x15, .bf16⟩
  | .local _ .vmem, ⟨4, _⟩ => ⟨S16x82x15, .bf16⟩
  | .local _ .vmem, ⟨5, _⟩ => ⟨S16x82x82, .f32⟩
  | .local _ .vmem, ⟨6, _⟩ => ⟨S16x82x82, .f32⟩
  | .local _ .vmem, ⟨7, _⟩ => ⟨S16x82x15, .bf16⟩
  | .local _ .vmem, ⟨8, _⟩ => ⟨S16x82x15, .bf16⟩
  | .local _ .vmem, ⟨9, _⟩ => ⟨S1x15, .f32⟩
  | .local _ .vmem, ⟨10, _⟩ => ⟨S15x15, .bf16⟩
  | .local _ .vmem, ⟨11, _⟩ => ⟨S16x82x15, .bf16⟩
  | .local _ .vmem, ⟨12, _⟩ => ⟨S16x82x15, .bf16⟩
  | .local _ .vmem, ⟨13, _⟩ => ⟨S16x82x82, .f32⟩
  | .local _ .vmem, ⟨14, _⟩ => ⟨S16x82x82, .f32⟩
  | .local _ .vmem, ⟨15, _⟩ => ⟨S16x82x15, .bf16⟩
  | .local _ .vmem, ⟨16, _⟩ => ⟨S16x82x15, .bf16⟩
  | .local _ .vmem, ⟨17, _⟩ => ⟨S1x15, .f32⟩
  | .local _ .vmem, ⟨18, _⟩ => ⟨S16x82x15, .f32⟩
  | .local _ .vmem, ⟨19, _⟩ => ⟨S16x82x15, .f32⟩
  | .local _ .vmem, ⟨20, _⟩ => ⟨S512x1230, .f32⟩
  | .local _ .vmem, ⟨21, _⟩ => ⟨S512x1230, .f32⟩
  | .local _ .vmem, ⟨22, _⟩ => ⟨S1230x300, .bf16⟩
  | .local _ .vmem, ⟨23, _⟩ => ⟨S1x300, .f32⟩
  | .local _ .vmem, ⟨24, _⟩ => ⟨S300x29, .bf16⟩
  | .local _ .vmem, ⟨25, _⟩ => ⟨S1x29, .f32⟩
  | .local _ .vmem, ⟨26, _⟩ => ⟨S512x29, .f32⟩
  | .local _ .vmem, ⟨27, _⟩ => ⟨S512x29, .f32⟩
  | _, _ => ⟨S4096x82x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x82x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x82x15 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x82x82 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x82x15 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x15 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S15x15 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x82x15 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![256], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S16x82x82 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x82x15 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x15 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16x82x15 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1230 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1230x300 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S300x29 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x29 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x29 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S15_S1x15 : S15.ShapeCasts S1x15
  shapeCasts_S300_S1x300 : S300.ShapeCasts S1x300
  shapeCasts_S29_S1x29 : S29.ShapeCasts S1x29
  bitsLt_bf16_f32 : FTy.bits .bf16 < FTy.bits .f32
  inb_S10x15_S10x15_0_0 : ∀ a, (![0, 0] : Fin 2 → Nat) a + S10x15.size a ≤ S10x15.size a
  h_S10x15 : 0 < S10x15.numel
  inb_S16x82x10_S1x82x10_0_0_0 : ∀ a, (![0, 0, 0] : Fin 3 → Nat) a + S1x82x10.size a ≤ S16x82x10.size a
  h_S1x82x10 : 0 < S1x82x10.numel
  shapeCasts_S1x82x10_S82x10 : S1x82x10.ShapeCasts S82x10
  inb_S16x82x15_S1x82x15_0_0_0 : ∀ a, (![0, 0, 0] : Fin 3 → Nat) a + S1x82x15.size a ≤ S16x82x15.size a
  h_S1x82x15 : 0 < S1x82x15.numel
  shapeCasts_S1x82x15_S82x15 : S1x82x15.ShapeCasts S82x15
  shapeCasts_S82x15_S1x82x15 : S82x15.ShapeCasts S1x82x15
  packedbf16_S16x82x15_S1x82x15_0_0_0 : (Rect.unit (s := S16x82x15) ![0, 0, 0] S1x82x15.size inb_S16x82x15_S1x82x15_0_0_0).PackedRows (EltTy.packing .bf16)
  inb_S16x82x10_S1x82x10_1_0_0 : ∀ a, (![1, 0, 0] : Fin 3 → Nat) a + S1x82x10.size a ≤ S16x82x10.size a
  inb_S16x82x15_S1x82x15_1_0_0 : ∀ a, (![1, 0, 0] : Fin 3 → Nat) a + S1x82x15.size a ≤ S16x82x15.size a
  packedbf16_S16x82x15_S1x82x15_1_0_0 : (Rect.unit (s := S16x82x15) ![1, 0, 0] S1x82x15.size inb_S16x82x15_S1x82x15_1_0_0).PackedRows (EltTy.packing .bf16)
  inb_S16x82x10_S1x82x10_2_0_0 : ∀ a, (![2, 0, 0] : Fin 3 → Nat) a + S1x82x10.size a ≤ S16x82x10.size a
  inb_S16x82x15_S1x82x15_2_0_0 : ∀ a, (![2, 0, 0] : Fin 3 → Nat) a + S1x82x15.size a ≤ S16x82x15.size a
  packedbf16_S16x82x15_S1x82x15_2_0_0 : (Rect.unit (s := S16x82x15) ![2, 0, 0] S1x82x15.size inb_S16x82x15_S1x82x15_2_0_0).PackedRows (EltTy.packing .bf16)
  inb_S16x82x10_S1x82x10_3_0_0 : ∀ a, (![3, 0, 0] : Fin 3 → Nat) a + S1x82x10.size a ≤ S16x82x10.size a
  inb_S16x82x15_S1x82x15_3_0_0 : ∀ a, (![3, 0, 0] : Fin 3 → Nat) a + S1x82x15.size a ≤ S16x82x15.size a
  packedbf16_S16x82x15_S1x82x15_3_0_0 : (Rect.unit (s := S16x82x15) ![3, 0, 0] S1x82x15.size inb_S16x82x15_S1x82x15_3_0_0).PackedRows (EltTy.packing .bf16)
  inb_S16x82x10_S1x82x10_4_0_0 : ∀ a, (![4, 0, 0] : Fin 3 → Nat) a + S1x82x10.size a ≤ S16x82x10.size a
  inb_S16x82x15_S1x82x15_4_0_0 : ∀ a, (![4, 0, 0] : Fin 3 → Nat) a + S1x82x15.size a ≤ S16x82x15.size a
  packedbf16_S16x82x15_S1x82x15_4_0_0 : (Rect.unit (s := S16x82x15) ![4, 0, 0] S1x82x15.size inb_S16x82x15_S1x82x15_4_0_0).PackedRows (EltTy.packing .bf16)
  inb_S16x82x10_S1x82x10_5_0_0 : ∀ a, (![5, 0, 0] : Fin 3 → Nat) a + S1x82x10.size a ≤ S16x82x10.size a
  inb_S16x82x15_S1x82x15_5_0_0 : ∀ a, (![5, 0, 0] : Fin 3 → Nat) a + S1x82x15.size a ≤ S16x82x15.size a
  packedbf16_S16x82x15_S1x82x15_5_0_0 : (Rect.unit (s := S16x82x15) ![5, 0, 0] S1x82x15.size inb_S16x82x15_S1x82x15_5_0_0).PackedRows (EltTy.packing .bf16)
  inb_S16x82x10_S1x82x10_6_0_0 : ∀ a, (![6, 0, 0] : Fin 3 → Nat) a + S1x82x10.size a ≤ S16x82x10.size a
  inb_S16x82x15_S1x82x15_6_0_0 : ∀ a, (![6, 0, 0] : Fin 3 → Nat) a + S1x82x15.size a ≤ S16x82x15.size a
  packedbf16_S16x82x15_S1x82x15_6_0_0 : (Rect.unit (s := S16x82x15) ![6, 0, 0] S1x82x15.size inb_S16x82x15_S1x82x15_6_0_0).PackedRows (EltTy.packing .bf16)
  inb_S16x82x10_S1x82x10_7_0_0 : ∀ a, (![7, 0, 0] : Fin 3 → Nat) a + S1x82x10.size a ≤ S16x82x10.size a
  inb_S16x82x15_S1x82x15_7_0_0 : ∀ a, (![7, 0, 0] : Fin 3 → Nat) a + S1x82x15.size a ≤ S16x82x15.size a
  packedbf16_S16x82x15_S1x82x15_7_0_0 : (Rect.unit (s := S16x82x15) ![7, 0, 0] S1x82x15.size inb_S16x82x15_S1x82x15_7_0_0).PackedRows (EltTy.packing .bf16)
  inb_S16x82x10_S1x82x10_8_0_0 : ∀ a, (![8, 0, 0] : Fin 3 → Nat) a + S1x82x10.size a ≤ S16x82x10.size a
  inb_S16x82x15_S1x82x15_8_0_0 : ∀ a, (![8, 0, 0] : Fin 3 → Nat) a + S1x82x15.size a ≤ S16x82x15.size a
  packedbf16_S16x82x15_S1x82x15_8_0_0 : (Rect.unit (s := S16x82x15) ![8, 0, 0] S1x82x15.size inb_S16x82x15_S1x82x15_8_0_0).PackedRows (EltTy.packing .bf16)
  inb_S16x82x10_S1x82x10_9_0_0 : ∀ a, (![9, 0, 0] : Fin 3 → Nat) a + S1x82x10.size a ≤ S16x82x10.size a
  inb_S16x82x15_S1x82x15_9_0_0 : ∀ a, (![9, 0, 0] : Fin 3 → Nat) a + S1x82x15.size a ≤ S16x82x15.size a
  packedbf16_S16x82x15_S1x82x15_9_0_0 : (Rect.unit (s := S16x82x15) ![9, 0, 0] S1x82x15.size inb_S16x82x15_S1x82x15_9_0_0).PackedRows (EltTy.packing .bf16)
  inb_S16x82x10_S1x82x10_10_0_0 : ∀ a, (![10, 0, 0] : Fin 3 → Nat) a + S1x82x10.size a ≤ S16x82x10.size a
  inb_S16x82x15_S1x82x15_10_0_0 : ∀ a, (![10, 0, 0] : Fin 3 → Nat) a + S1x82x15.size a ≤ S16x82x15.size a
  packedbf16_S16x82x15_S1x82x15_10_0_0 : (Rect.unit (s := S16x82x15) ![10, 0, 0] S1x82x15.size inb_S16x82x15_S1x82x15_10_0_0).PackedRows (EltTy.packing .bf16)
  inb_S16x82x10_S1x82x10_11_0_0 : ∀ a, (![11, 0, 0] : Fin 3 → Nat) a + S1x82x10.size a ≤ S16x82x10.size a
  inb_S16x82x15_S1x82x15_11_0_0 : ∀ a, (![11, 0, 0] : Fin 3 → Nat) a + S1x82x15.size a ≤ S16x82x15.size a
  packedbf16_S16x82x15_S1x82x15_11_0_0 : (Rect.unit (s := S16x82x15) ![11, 0, 0] S1x82x15.size inb_S16x82x15_S1x82x15_11_0_0).PackedRows (EltTy.packing .bf16)
  inb_S16x82x10_S1x82x10_12_0_0 : ∀ a, (![12, 0, 0] : Fin 3 → Nat) a + S1x82x10.size a ≤ S16x82x10.size a
  inb_S16x82x15_S1x82x15_12_0_0 : ∀ a, (![12, 0, 0] : Fin 3 → Nat) a + S1x82x15.size a ≤ S16x82x15.size a
  packedbf16_S16x82x15_S1x82x15_12_0_0 : (Rect.unit (s := S16x82x15) ![12, 0, 0] S1x82x15.size inb_S16x82x15_S1x82x15_12_0_0).PackedRows (EltTy.packing .bf16)
  inb_S16x82x10_S1x82x10_13_0_0 : ∀ a, (![13, 0, 0] : Fin 3 → Nat) a + S1x82x10.size a ≤ S16x82x10.size a
  inb_S16x82x15_S1x82x15_13_0_0 : ∀ a, (![13, 0, 0] : Fin 3 → Nat) a + S1x82x15.size a ≤ S16x82x15.size a
  packedbf16_S16x82x15_S1x82x15_13_0_0 : (Rect.unit (s := S16x82x15) ![13, 0, 0] S1x82x15.size inb_S16x82x15_S1x82x15_13_0_0).PackedRows (EltTy.packing .bf16)
  inb_S16x82x10_S1x82x10_14_0_0 : ∀ a, (![14, 0, 0] : Fin 3 → Nat) a + S1x82x10.size a ≤ S16x82x10.size a
  inb_S16x82x15_S1x82x15_14_0_0 : ∀ a, (![14, 0, 0] : Fin 3 → Nat) a + S1x82x15.size a ≤ S16x82x15.size a
  packedbf16_S16x82x15_S1x82x15_14_0_0 : (Rect.unit (s := S16x82x15) ![14, 0, 0] S1x82x15.size inb_S16x82x15_S1x82x15_14_0_0).PackedRows (EltTy.packing .bf16)
  inb_S16x82x10_S1x82x10_15_0_0 : ∀ a, (![15, 0, 0] : Fin 3 → Nat) a + S1x82x10.size a ≤ S16x82x10.size a
  inb_S16x82x15_S1x82x15_15_0_0 : ∀ a, (![15, 0, 0] : Fin 3 → Nat) a + S1x82x15.size a ≤ S16x82x15.size a
  packedbf16_S16x82x15_S1x82x15_15_0_0 : (Rect.unit (s := S16x82x15) ![15, 0, 0] S1x82x15.size inb_S16x82x15_S1x82x15_15_0_0).PackedRows (EltTy.packing .bf16)
  inb_S1x15_S1x15_0_0 : ∀ a, (![0, 0] : Fin 2 → Nat) a + S1x15.size a ≤ S1x15.size a
  h_S1x15 : 0 < S1x15.numel
  shapeCasts_S1x15_S1x15 : S1x15.ShapeCasts S1x15
  inb_S15x15_S15x15_0_0 : ∀ a, (![0, 0] : Fin 2 → Nat) a + S15x15.size a ≤ S15x15.size a
  h_S15x15 : 0 < S15x15.numel
  shapeCasts_S15x15_S15x15 : S15x15.ShapeCasts S15x15
  inb_S16x82x82_S1x82x82_0_0_0 : ∀ a, (![0, 0, 0] : Fin 3 → Nat) a + S1x82x82.size a ≤ S16x82x82.size a
  h_S1x82x82 : 0 < S1x82x82.numel
  shapeCasts_S1x82x82_S82x82 : S1x82x82.ShapeCasts S82x82
  broadcasts_S1x15_S82x15 : S1x15.Broadcasts S82x15
  inb_S16x82x82_S1x82x82_1_0_0 : ∀ a, (![1, 0, 0] : Fin 3 → Nat) a + S1x82x82.size a ≤ S16x82x82.size a
  inb_S16x82x82_S1x82x82_2_0_0 : ∀ a, (![2, 0, 0] : Fin 3 → Nat) a + S1x82x82.size a ≤ S16x82x82.size a
  inb_S16x82x82_S1x82x82_3_0_0 : ∀ a, (![3, 0, 0] : Fin 3 → Nat) a + S1x82x82.size a ≤ S16x82x82.size a
  inb_S16x82x82_S1x82x82_4_0_0 : ∀ a, (![4, 0, 0] : Fin 3 → Nat) a + S1x82x82.size a ≤ S16x82x82.size a
  inb_S16x82x82_S1x82x82_5_0_0 : ∀ a, (![5, 0, 0] : Fin 3 → Nat) a + S1x82x82.size a ≤ S16x82x82.size a
  inb_S16x82x82_S1x82x82_6_0_0 : ∀ a, (![6, 0, 0] : Fin 3 → Nat) a + S1x82x82.size a ≤ S16x82x82.size a
  inb_S16x82x82_S1x82x82_7_0_0 : ∀ a, (![7, 0, 0] : Fin 3 → Nat) a + S1x82x82.size a ≤ S16x82x82.size a
  inb_S16x82x82_S1x82x82_8_0_0 : ∀ a, (![8, 0, 0] : Fin 3 → Nat) a + S1x82x82.size a ≤ S16x82x82.size a
  inb_S16x82x82_S1x82x82_9_0_0 : ∀ a, (![9, 0, 0] : Fin 3 → Nat) a + S1x82x82.size a ≤ S16x82x82.size a
  inb_S16x82x82_S1x82x82_10_0_0 : ∀ a, (![10, 0, 0] : Fin 3 → Nat) a + S1x82x82.size a ≤ S16x82x82.size a
  inb_S16x82x82_S1x82x82_11_0_0 : ∀ a, (![11, 0, 0] : Fin 3 → Nat) a + S1x82x82.size a ≤ S16x82x82.size a
  inb_S16x82x82_S1x82x82_12_0_0 : ∀ a, (![12, 0, 0] : Fin 3 → Nat) a + S1x82x82.size a ≤ S16x82x82.size a
  inb_S16x82x82_S1x82x82_13_0_0 : ∀ a, (![13, 0, 0] : Fin 3 → Nat) a + S1x82x82.size a ≤ S16x82x82.size a
  inb_S16x82x82_S1x82x82_14_0_0 : ∀ a, (![14, 0, 0] : Fin 3 → Nat) a + S1x82x82.size a ≤ S16x82x82.size a
  inb_S16x82x82_S1x82x82_15_0_0 : ∀ a, (![15, 0, 0] : Fin 3 → Nat) a + S1x82x82.size a ≤ S16x82x82.size a
  shapeCasts_S4096x82x15_S4096x1230 : S4096x82x15.ShapeCasts S4096x1230
  inb_S512x1230_S512x1230_0_0 : ∀ a, (![0, 0] : Fin 2 → Nat) a + S512x1230.size a ≤ S512x1230.size a
  h_S512x1230 : 0 < S512x1230.numel
  shapeCasts_S512x1230_S512x1230 : S512x1230.ShapeCasts S512x1230
  inb_S1230x300_S1230x300_0_0 : ∀ a, (![0, 0] : Fin 2 → Nat) a + S1230x300.size a ≤ S1230x300.size a
  h_S1230x300 : 0 < S1230x300.numel
  shapeCasts_S1230x300_S1230x300 : S1230x300.ShapeCasts S1230x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S512x300 : S1x300.Broadcasts S512x300
  inb_S300x29_S300x29_0_0 : ∀ a, (![0, 0] : Fin 2 → Nat) a + S300x29.size a ≤ S300x29.size a
  h_S300x29 : 0 < S300x29.numel
  shapeCasts_S300x29_S300x29 : S300x29.ShapeCasts S300x29
  inb_S1x29_S1x29_0_0 : ∀ a, (![0, 0] : Fin 2 → Nat) a + S1x29.size a ≤ S1x29.size a
  h_S1x29 : 0 < S1x29.numel
  shapeCasts_S1x29_S1x29 : S1x29.ShapeCasts S1x29
  broadcasts_S1x29_S512x29 : S1x29.Broadcasts S512x29
  inb_S512x29_S512x29_0_0 : ∀ a, (![0, 0] : Fin 2 → Nat) a + S512x29.size a ≤ S512x29.size a
  h_S512x29 : 0 < S512x29.numel
  dot_S82x10_S10x15_S82x15_1_0_0_1_n_n_wf : DotDims.WF S82x10 S10x15 S82x15 [1] [0] [0] [1] [] []
  dot_S82x82_S82x15_S82x15_1_0_0_1_n_n_wf : DotDims.WF S82x82 S82x15 S82x15 [1] [0] [0] [1] [] []
  dot_S82x15_S15x15_S82x15_1_0_0_1_n_n_wf : DotDims.WF S82x15 S15x15 S82x15 [1] [0] [0] [1] [] []
  dot_S512x1230_S1230x300_S512x300_1_0_0_1_n_n_wf : DotDims.WF S512x1230 S1230x300 S512x300 [1] [0] [0] [1] [] []
  dot_S512x300_S300x29_S512x29_1_0_0_1_n_n_wf : DotDims.WF S512x300 S300x29 S512x29 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x82x10.size a ≤ S4096x82x10.size a
  hwx0_0 : ∀ i : grid0.Coords, EltTy.bits .f32 = 32 ∨ (Rect.block (s := S4096x82x10) S16x82x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x15.size a ≤ S10x15.size a
  hwx0_1 : ∀ i : grid0.Coords, EltTy.bits .f32 = 32 ∨ (Rect.block (s := S10x15) S10x15.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x82x15.size a ≤ S4096x82x15.size a
  hwx0_2 : ∀ i : grid0.Coords, EltTy.bits .bf16 = 32 ∨ (Rect.block (s := S4096x82x15) S16x82x15.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x82x82.size a ≤ S4096x82x82.size a
  hwx1_0 : ∀ i : grid1.Coords, EltTy.bits .f32 = 32 ∨ (Rect.block (s := S4096x82x82) S16x82x82.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x82x15.size a ≤ S4096x82x15.size a
  hwx1_1 : ∀ i : grid1.Coords, EltTy.bits .bf16 = 32 ∨ (Rect.block (s := S4096x82x15) S16x82x15.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x15.size a ≤ S1x15.size a
  hwx1_2 : ∀ i : grid1.Coords, EltTy.bits .f32 = 32 ∨ (Rect.block (s := S1x15) S1x15.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S15x15.size a ≤ S15x15.size a
  hwx1_3 : ∀ i : grid1.Coords, EltTy.bits .bf16 = 32 ∨ (Rect.block (s := S15x15) S15x15.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x82x15.size a ≤ S4096x82x15.size a
  hwx1_4 : ∀ i : grid1.Coords, EltTy.bits .bf16 = 32 ∨ (Rect.block (s := S4096x82x15) S16x82x15.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x82x82.size a ≤ S4096x82x82.size a
  hwx2_0 : ∀ i : grid2.Coords, EltTy.bits .f32 = 32 ∨ (Rect.block (s := S4096x82x82) S16x82x82.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x82x15.size a ≤ S4096x82x15.size a
  hwx2_1 : ∀ i : grid2.Coords, EltTy.bits .bf16 = 32 ∨ (Rect.block (s := S4096x82x15) S16x82x15.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x15.size a ≤ S1x15.size a
  hwx2_2 : ∀ i : grid2.Coords, EltTy.bits .f32 = 32 ∨ (Rect.block (s := S1x15) S1x15.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x82x15.size a ≤ S4096x82x15.size a
  hwx2_3 : ∀ i : grid2.Coords, EltTy.bits .f32 = 32 ∨ (Rect.block (s := S4096x82x15) S16x82x15.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1230.size a ≤ S4096x1230.size a
  hwx3_0 : ∀ i : grid3.Coords, EltTy.bits .f32 = 32 ∨ (Rect.block (s := S4096x1230) S512x1230.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1230x300.size a ≤ S1230x300.size a
  hwx3_1 : ∀ i : grid3.Coords, EltTy.bits .bf16 = 32 ∨ (Rect.block (s := S1230x300) S1230x300.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x300.size a ≤ S1x300.size a
  hwx3_2 : ∀ i : grid3.Coords, EltTy.bits .f32 = 32 ∨ (Rect.block (s := S1x300) S1x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x29.size a ≤ S300x29.size a
  hwx3_3 : ∀ i : grid3.Coords, EltTy.bits .bf16 = 32 ∨ (Rect.block (s := S300x29) S300x29.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x29.size a ≤ S1x29.size a
  hwx3_4 : ∀ i : grid3.Coords, EltTy.bits .f32 = 32 ∨ (Rect.block (s := S1x29) S1x29.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x29.size a ≤ S4096x29.size a
  hwx3_5 : ∀ i : grid3.Coords, EltTy.bits .f32 = 32 ∨ (Rect.block (s := S4096x29) S512x29.size (cc3_transform_5 i) (hinb3_5 i)).WholeWords (EltTy.packing .f32)

variable [Facts₀]

def dot_S82x10_S10x15_S82x15_1_0_0_1_n_n : DotDims S82x10 S10x15 S82x15 where
  lhsContracting := [1]
  rhsContracting := [0]
  lhsNonContracting := [0]
  rhsNonContracting := [1]
  lhsBatch := []
  rhsBatch := []
  wf := dot_S82x10_S10x15_S82x15_1_0_0_1_n_n_wf
def dot_S82x82_S82x15_S82x15_1_0_0_1_n_n : DotDims S82x82 S82x15 S82x15 where
  lhsContracting := [1]
  rhsContracting := [0]
  lhsNonContracting := [0]
  rhsNonContracting := [1]
  lhsBatch := []
  rhsBatch := []
  wf := dot_S82x82_S82x15_S82x15_1_0_0_1_n_n_wf
def dot_S82x15_S15x15_S82x15_1_0_0_1_n_n : DotDims S82x15 S15x15 S82x15 where
  lhsContracting := [1]
  rhsContracting := [0]
  lhsNonContracting := [0]
  rhsNonContracting := [1]
  lhsBatch := []
  rhsBatch := []
  wf := dot_S82x15_S15x15_S82x15_1_0_0_1_n_n_wf
def dot_S512x1230_S1230x300_S512x300_1_0_0_1_n_n : DotDims S512x1230 S1230x300 S512x300 where
  lhsContracting := [1]
  rhsContracting := [0]
  lhsNonContracting := [0]
  rhsNonContracting := [1]
  lhsBatch := []
  rhsBatch := []
  wf := dot_S512x1230_S1230x300_S512x300_1_0_0_1_n_n_wf
def dot_S512x300_S300x29_S512x29_1_0_0_1_n_n : DotDims S512x300 S300x29 S512x29 where
  lhsContracting := [1]
  rhsContracting := [0]
  lhsNonContracting := [0]
  rhsNonContracting := [1]
  lhsBatch := []
  rhsBatch := []
  wf := dot_S512x300_S300x29_S512x29_1_0_0_1_n_n_wf

abbrev win0_0 : Pipeline.Window sig grid0 :=
  Pipeline.Window.ofSpec (Memref.whole main_arg0) S16x82x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10x15.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x82x15.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S16x82x82.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S16x82x15.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x15.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S15x15.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S16x82x15.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S16x82x82.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S16x82x15.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x15.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S16x82x15.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v10) S512x1230.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1230x300.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S300x29.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S1x29.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S512x29.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4096x82x10 : Shape := ⟨3, ![4096, 82, 10]⟩
abbrev S4096x82x82 : Shape := ⟨3, ![4096, 82, 82]⟩
abbrev S10x15 : Shape := ⟨2, ![10, 15]⟩
abbrev S15 : Shape := ⟨1, ![15]⟩
abbrev S15x15 : Shape := ⟨2, ![15, 15]⟩
abbrev S1230x300 : Shape := ⟨2, ![1230, 300]⟩
abbrev S300 : Shape := ⟨1, ![300]⟩
abbrev S300x29 : Shape := ⟨2, ![300, 29]⟩
abbrev S29 : Shape := ⟨1, ![29]⟩
abbrev S4096x82x15 : Shape := ⟨3, ![4096, 82, 15]⟩
abbrev S1x1x15 : Shape := ⟨3, ![1, 1, 15]⟩
abbrev S_ : Shape := ⟨0, ![]⟩
abbrev S4096x1230 : Shape := ⟨2, ![4096, 1230]⟩
abbrev S4096x300 : Shape := ⟨2, ![4096, 300]⟩
abbrev S1x300 : Shape := ⟨2, ![1, 300]⟩
abbrev S4096x29 : Shape := ⟨2, ![4096, 29]⟩
abbrev S1x29 : Shape := ⟨2, ![1, 29]⟩

abbrev nBuf : Space → Nat
  | .hbm => 38
  | .vmem => 0
  | .smem => 0
  | _ => 0

abbrev bufTy : (tb : Table) → Fin (tcTables nBuf tb) → BufTy
  | .hbm, ⟨0, _⟩ => ⟨S4096x82x10, .f32⟩
  | .hbm, ⟨1, _⟩ => ⟨S4096x82x82, .f32⟩
  | .hbm, ⟨2, _⟩ => ⟨S10x15, .f32⟩
  | .hbm, ⟨3, _⟩ => ⟨S15, .f32⟩
  | .hbm, ⟨4, _⟩ => ⟨S15x15, .f32⟩
  | .hbm, ⟨5, _⟩ => ⟨S15, .f32⟩
  | .hbm, ⟨6, _⟩ => ⟨S1230x300, .f32⟩
  | .hbm, ⟨7, _⟩ => ⟨S300, .f32⟩
  | .hbm, ⟨8, _⟩ => ⟨S300x29, .f32⟩
  | .hbm, ⟨9, _⟩ => ⟨S29, .f32⟩
  | .hbm, ⟨10, _⟩ => ⟨S4096x82x15, .f32⟩
  | .hbm, ⟨11, _⟩ => ⟨S4096x82x15, .f32⟩
  | .hbm, ⟨12, _⟩ => ⟨S1x1x15, .f32⟩
  | .hbm, ⟨13, _⟩ => ⟨S4096x82x15, .f32⟩
  | .hbm, ⟨14, _⟩ => ⟨S4096x82x15, .f32⟩
  | .hbm, ⟨15, _⟩ => ⟨S_, .f32⟩
  | .hbm, ⟨16, _⟩ => ⟨S4096x82x15, .f32⟩
  | .hbm, ⟨17, _⟩ => ⟨S4096x82x15, .f32⟩
  | .hbm, ⟨18, _⟩ => ⟨S4096x82x15, .f32⟩
  | .hbm, ⟨19, _⟩ => ⟨S4096x82x15, .f32⟩
  | .hbm, ⟨20, _⟩ => ⟨S1x1x15, .f32⟩
  | .hbm, ⟨21, _⟩ => ⟨S4096x82x15, .f32⟩
  | .hbm, ⟨22, _⟩ => ⟨S4096x82x15, .f32⟩
  | .hbm, ⟨23, _⟩ => ⟨S_, .f32⟩
  | .hbm, ⟨24, _⟩ => ⟨S4096x82x15, .f32⟩
  | .hbm, ⟨25, _⟩ => ⟨S4096x82x15, .f32⟩
  | .hbm, ⟨26, _⟩ => ⟨S4096x1230, .f32⟩
  | .hbm, ⟨27, _⟩ => ⟨S4096x300, .f32⟩
  | .hbm, ⟨28, _⟩ => ⟨S1x300, .f32⟩
  | .hbm, ⟨29, _⟩ => ⟨S4096x300, .f32⟩
  | .hbm, ⟨30, _⟩ => ⟨S4096x300, .f32⟩
  | .hbm, ⟨31, _⟩ => ⟨S_, .f32⟩
  | .hbm, ⟨32, _⟩ => ⟨S4096x300, .f32⟩
  | .hbm, ⟨33, _⟩ => ⟨S4096x300, .f32⟩
  | .hbm, ⟨34, _⟩ => ⟨S4096x29, .f32⟩
  | .hbm, ⟨35, _⟩ => ⟨S1x29, .f32⟩
  | .hbm, ⟨36, _⟩ => ⟨S4096x29, .f32⟩
  | .hbm, ⟨37, _⟩ => ⟨S4096x29, .f32⟩
  | _, _ => ⟨S4096x82x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S15_S1x1x15_2 : S15.BroadcastsInDim S1x1x15 (![2] : Fin 1 → Fin S1x1x15.rank)
  bcast_S1x1x15_S4096x82x15_0_1_2 : S1x1x15.BroadcastsInDim S4096x82x15 (![0, 1, 2] : Fin 3 → Fin S4096x82x15.rank)
  bcast_S_S4096x82x15 : S_.BroadcastsInDim S4096x82x15 (![] : Fin 0 → Fin S4096x82x15.rank)
  shapeCasts_S4096x82x15_S4096x1230 : S4096x82x15.ShapeCasts S4096x1230
  bcast_S300_S1x300_1 : S300.BroadcastsInDim S1x300 (![1] : Fin 1 → Fin S1x300.rank)
  bcast_S1x300_S4096x300_0_1 : S1x300.BroadcastsInDim S4096x300 (![0, 1] : Fin 2 → Fin S4096x300.rank)
  bcast_S_S4096x300 : S_.BroadcastsInDim S4096x300 (![] : Fin 0 → Fin S4096x300.rank)
  bcast_S29_S1x29_1 : S29.BroadcastsInDim S1x29 (![1] : Fin 1 → Fin S1x29.rank)
  bcast_S1x29_S4096x29_0_1 : S1x29.BroadcastsInDim S4096x29 (![0, 1] : Fin 2 → Fin S4096x29.rank)
  dot_S4096x82x10_S10x15_S4096x82x15_2_0_01_1_n_n_wf : DotDims.WF S4096x82x10 S10x15 S4096x82x15 [2] [0] [0, 1] [1] [] []
  dot_S4096x82x82_S4096x82x15_S4096x82x15_2_1_1_2_0_0_wf : DotDims.WF S4096x82x82 S4096x82x15 S4096x82x15 [2] [1] [1] [2] [0] [0]
  dot_S4096x82x15_S15x15_S4096x82x15_2_0_01_1_n_n_wf : DotDims.WF S4096x82x15 S15x15 S4096x82x15 [2] [0] [0, 1] [1] [] []
  dot_S4096x1230_S1230x300_S4096x300_1_0_0_1_n_n_wf : DotDims.WF S4096x1230 S1230x300 S4096x300 [1] [0] [0] [1] [] []
  dot_S4096x300_S300x29_S4096x29_1_0_0_1_n_n_wf : DotDims.WF S4096x300 S300x29 S4096x29 [1] [0] [0] [1] [] []

variable [Facts₀]

def dot_S4096x82x10_S10x15_S4096x82x15_2_0_01_1_n_n : DotDims S4096x82x10 S10x15 S4096x82x15 where
  lhsContracting := [2]
  rhsContracting := [0]
  lhsNonContracting := [0, 1]
  rhsNonContracting := [1]
  lhsBatch := []
  rhsBatch := []
  wf := dot_S4096x82x10_S10x15_S4096x82x15_2_0_01_1_n_n_wf
def dot_S4096x82x82_S4096x82x15_S4096x82x15_2_1_1_2_0_0 : DotDims S4096x82x82 S4096x82x15 S4096x82x15 where
  lhsContracting := [2]
  rhsContracting := [1]
  lhsNonContracting := [1]
  rhsNonContracting := [2]
  lhsBatch := [0]
  rhsBatch := [0]
  wf := dot_S4096x82x82_S4096x82x15_S4096x82x15_2_1_1_2_0_0_wf
def dot_S4096x82x15_S15x15_S4096x82x15_2_0_01_1_n_n : DotDims S4096x82x15 S15x15 S4096x82x15 where
  lhsContracting := [2]
  rhsContracting := [0]
  lhsNonContracting := [0, 1]
  rhsNonContracting := [1]
  lhsBatch := []
  rhsBatch := []
  wf := dot_S4096x82x15_S15x15_S4096x82x15_2_0_01_1_n_n_wf
def dot_S4096x1230_S1230x300_S4096x300_1_0_0_1_n_n : DotDims S4096x1230 S1230x300 S4096x300 where
  lhsContracting := [1]
  rhsContracting := [0]
  lhsNonContracting := [0]
  rhsNonContracting := [1]
  lhsBatch := []
  rhsBatch := []
  wf := dot_S4096x1230_S1230x300_S4096x300_1_0_0_1_n_n_wf
def dot_S4096x300_S300x29_S4096x29_1_0_0_1_n_n : DotDims S4096x300 S300x29 S4096x29 where
  lhsContracting := [1]
  rhsContracting := [0]
  lhsNonContracting := [0]
  rhsNonContracting := [1]
  lhsBatch := []
  rhsBatch := []
  wf := dot_S4096x300_S300x29_S4096x29_1_0_0_1_n_n_wf

class Facts : Prop extends Facts₀ where

variable [Facts]
-- ==== Proof.Spec.lean ====
/-
  The function both programs compute, stage by stage, on the extended reals.

  A batch of 4096 graphs, each with 82 nodes carrying 10 features and a dense 82×82 adjacency matrix. Two graph
  convolutions `h ↦ relu (A · (h · W) + b)` are followed by a two-layer dense head on the flattened node features.
  The stages are cut where the kernel cuts them: `proj` is `x · W₁`; `layer1` finishes the first convolution and
  applies `W₂` in the same pass; `layer2` finishes the second convolution; `flatten` lays a graph's 82×15 features
  out as one row of 1230; `head` is `relu (flat · F + f) · O + o`. A bias vector enters as a single row (`rowOf`).
  Every sum is a finite sum in the commutative monoid of extended reals, so no order or grouping of its terms matters.
-/
import Idealize.ShloMosaic.PureOps.Ideal
import Idealize.ShloMosaic.Lib.ValueIdx

noncomputable section

open scoped BigOperators

namespace Cert.Gcn

open Idealize.ShloMosaic Idealize.ShloMosaic.ValueIdx

/-- Arrays of extended reals with one, two and three axes of literal extents. -/
abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-- The rectifier: the larger of its argument and zero. -/
def relu (z : EReal) : EReal := max z 0

/-- A vector laid out as a single row. -/
def rowOf {n : Nat} (v : Arr1 n) : Arr2 1 n := fun i =>
  let j : Fin n := i 1
  v (ix1 j)

theorem rowOf_apply {n : Nat} (v : Arr1 n) (j : Fin n) : rowOf v (ix2 (0 : Fin 1) j) = v (ix1 j) := rfl

/-- Node features times the first weight matrix: per graph `g`, `(x_g · W₁)[n, e] = Σₛ x[g, n, s] · W₁[s, e]`. -/
def proj (x : Arr3 4096 82 10) (w : Arr2 10 15) : Arr3 4096 82 15 := fun i =>
  let g : Fin 4096 := i 0
  let n : Fin 82 := i 1
  let e : Fin 15 := i 2
  ∑ s : Fin 10, x (ix3 g n s) * w (ix2 s e)

theorem proj_apply (x : Arr3 4096 82 10) (w : Arr2 10 15) (g : Fin 4096) (n : Fin 82) (e : Fin 15) :
    proj x w (ix3 g n e) = ∑ s : Fin 10, x (ix3 g n s) * w (ix2 s e) := rfl

/-- The aggregated, biased and rectified features of node `n` of graph `g`: `relu (Σₖ A[g, n, k] · t[g, k, e] + b[e])`. -/
def conv (adj : Arr3 4096 82 82) (t : Arr3 4096 82 15) (b : Arr2 1 15) (g : Fin 4096) (n : Fin 82) (e : Fin 15) : EReal :=
  relu ((∑ k : Fin 82, adj (ix3 g n k) * t (ix3 g k e)) + b (ix2 (0 : Fin 1) e))

/-- The first convolution finished, then the second weight matrix applied:
    `Σₑ relu (Σₖ A[g, n, k] · t[g, k, e] + b[e]) · W₂[e, f]`. -/
def layer1 (adj : Arr3 4096 82 82) (t : Arr3 4096 82 15) (b : Arr2 1 15) (w : Arr2 15 15) : Arr3 4096 82 15 := fun i =>
  let g : Fin 4096 := i 0
  let n : Fin 82 := i 1
  let f : Fin 15 := i 2
  ∑ e : Fin 15, conv adj t b g n e * w (ix2 e f)

theorem layer1_apply (adj : Arr3 4096 82 82) (t : Arr3 4096 82 15) (b : Arr2 1 15) (w : Arr2 15 15)
    (g : Fin 4096) (n : Fin 82) (f : Fin 15) :
    layer1 adj t b w (ix3 g n f) = ∑ e : Fin 15, conv adj t b g n e * w (ix2 e f) := rfl

/-- The second convolution finished: `relu (Σₖ A[g, n, k] · t[g, k, f] + b[f])`. -/
def layer2 (adj : Arr3 4096 82 82) (t : Arr3 4096 82 15) (b : Arr2 1 15) : Arr3 4096 82 15 := fun i =>
  let g : Fin 4096 := i 0
  let n : Fin 82 := i 1
  let f : Fin 15 := i 2
  conv adj t b g n f

theorem layer2_apply (adj : Arr3 4096 82 82) (t : Arr3 4096 82 15) (b : Arr2 1 15) (g : Fin 4096) (n : Fin 82) (f : Fin 15) :
    layer2 adj t b (ix3 g n f) = conv adj t b g n f := rfl

/-- A graph's 82×15 node features as one row of 1230: entry `j` is feature `j % 15` of node `j / 15`. -/
def flatten (h : Arr3 4096 82 15) : Arr2 4096 1230 := fun i =>
  let g : Fin 4096 := i 0
  let j : Fin 1230 := i 1
  h (ix3 g (⟨j.val / 15, by have := j.isLt; omega⟩ : Fin 82) (⟨j.val % 15, Nat.mod_lt _ (by norm_num)⟩ : Fin 15))

theorem flatten_apply (h : Arr3 4096 82 15) (g : Fin 4096) (j : Fin 1230) :
    flatten h (ix2 g j)
      = h (ix3 g (⟨j.val / 15, by have := j.isLt; omega⟩ : Fin 82) (⟨j.val % 15, Nat.mod_lt _ (by norm_num)⟩ : Fin 15)) := rfl

/-- The hidden layer of the dense head: `relu (Σⱼ flat[g, j] · F[j, h] + f[h])`. -/
def hidden (flat : Arr2 4096 1230) (fw : Arr2 1230 300) (fb : Arr2 1 300) (g : Fin 4096) (h : Fin 300) : EReal :=
  relu ((∑ j : Fin 1230, flat (ix2 g j) * fw (ix2 j h)) + fb (ix2 (0 : Fin 1) h))

/-- The dense head: `Σₕ hidden[g, h] · O[h, c] + o[c]`. -/
def head (flat : Arr2 4096 1230) (fw : Arr2 1230 300) (fb : Arr2 1 300) (ow : Arr2 300 29) (ob : Arr2 1 29) : Arr2 4096 29 := fun i =>
  let g : Fin 4096 := i 0
  let c : Fin 29 := i 1
  (∑ h : Fin 300, hidden flat fw fb g h * ow (ix2 h c)) + ob (ix2 (0 : Fin 1) c)

theorem head_apply (flat : Arr2 4096 1230) (fw : Arr2 1230 300) (fb : Arr2 1 300) (ow : Arr2 300 29) (ob : Arr2 1 29)
    (g : Fin 4096) (c : Fin 29) :
    head flat fw fb ow ob (ix2 g c) = (∑ h : Fin 300, hidden flat fw fb g h * ow (ix2 h c)) + ob (ix2 (0 : Fin 1) c) := rfl

/-- The whole network: the four stages composed, each bias as a single row. -/
def net (x : Arr3 4096 82 10) (adj : Arr3 4096 82 82) (w1 : Arr2 10 15) (b1 : Arr1 15) (w2 : Arr2 15 15) (b2 : Arr1 15)
    (fw : Arr2 1230 300) (fb : Arr1 300) (ow : Arr2 300 29) (ob : Arr1 29) : Arr2 4096 29 :=
  head (flatten (layer2 adj (layer1 adj (proj x w1) (rowOf b1) w2) (rowOf b2))) fw (rowOf fb) ow (rowOf ob)

end Cert.Gcn

end
-- ==== Proof.Chain.lean ====
/-
  From the last boundary of the kernel's program back to its arguments.

  The program is: seven host operations (the four bias vectors laid out as single rows, three weight matrices
  converted in format, which on the extended reals changes nothing), three kernel regions, one host reshape (a graph's
  82×15 features as a row of 1230), and a fourth region. Between segments the buffer contents are a fold from the launch
  memory: a host stretch applies its operations, a region leaves its arrays at what its write-backs leave and every
  other buffer as entered. Given what each region's output array holds after its last write-back (the four hypotheses
  below, each at ANY entry contents), the result buffer at the last boundary is the network of the ten arguments: each
  buffer a region reads is walked back through the fold to the stage that wrote it, or to the launch memory.
-/
import proofs.«106284_g79757542687100_cont_9to1c4b_149_5_alg».proof.Proof.Gen.KernelIdeal.Frame
import proofs.«106284_g79757542687100_cont_9to1c4b_149_5_alg».proof.Proof.Spec
import Idealize.ShloMosaic.Lib.StableHlo.Run
import Idealize.ShloMosaic.Lib.Pipeline.Value

set_option maxRecDepth 16384

noncomputable section

open scoped BigOperators

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Gcn

/-- A vector reshaped to a single row reads the vector: entry `(0, j)` is entry `j`. -/
theorem reshape_row {n : Nat} (v : Arr1 n) (h : (⟨1, ![n]⟩ : Shape).ShapeCasts ⟨2, ![1, n]⟩) :
    shapeCast ⟨2, ![1, n]⟩ v h = rowOf v := by
  funext i
  obtain ⟨z, j, rfl⟩ : ∃ (z : Fin 1) (j : Fin n), i = ix2 z j := ⟨i 0, i 1, eq_ix2 i⟩
  obtain rfl : z = 0 := Subsingleton.elim _ _
  rw [rowOf_apply]
  refine shapeCast_apply v h _ _ ?_
  rw [Shape.rowMajor_val_one, Shape.rowMajor_val_two]
  show j.val = (0 : Nat) * n + j.val
  omega

/-- A graph's 82×15 features reshaped to a row of 1230: column `j` is feature `j % 15` of node `j / 15`. -/
theorem reshape_flatten (h : Arr3 4096 82 15) (hc : (⟨3, ![4096, 82, 15]⟩ : Shape).ShapeCasts ⟨2, ![4096, 1230]⟩) :
    shapeCast ⟨2, ![4096, 1230]⟩ h hc = flatten h := by
  funext i
  obtain ⟨g, j, rfl⟩ : ∃ (g : Fin 4096) (j : Fin 1230), i = ix2 g j := ⟨i 0, i 1, eq_ix2 i⟩
  rw [flatten_apply]
  refine shapeCast_apply h hc _ _ ?_
  rw [Shape.rowMajor_val_two, Shape.rowMajor_val_three]
  show (g.val * 82 + j.val / 15) * 15 + j.val % 15 = g.val * 1230 + j.val
  have := Nat.div_add_mod j.val 15
  omega

variable (m : (ℓ : Loc nD τ sig) → Buf (Elt Ideal) ℓ) (ρ : Dev nD → PrngReg)

/-! ## The first boundary: after the seven host operations -/

theorem W1_v0 (c : Dev nD) : (W1 m ρ c (Proc.devRef .tc main_v0) : Arr2 1 15) = rowOf (m ((c : Thread nD τ).loc main_arg3)) := by
  show StableHlo.after hostOps0 (W0 m ρ c) (Proc.devRef .tc main_v0) = _
  after_results
  exact reshape_row _ _
theorem W1_v1 (c : Dev nD) : (W1 m ρ c (Proc.devRef .tc main_v1) : Arr2 1 15) = rowOf (m ((c : Thread nD τ).loc main_arg5)) := by
  show StableHlo.after hostOps0 (W0 m ρ c) (Proc.devRef .tc main_v1) = _
  after_results
  exact reshape_row _ _
theorem W1_v2 (c : Dev nD) : (W1 m ρ c (Proc.devRef .tc main_v2) : Arr2 1 300) = rowOf (m ((c : Thread nD τ).loc main_arg7)) := by
  show StableHlo.after hostOps0 (W0 m ρ c) (Proc.devRef .tc main_v2) = _
  after_results
  exact reshape_row _ _
theorem W1_v3 (c : Dev nD) : (W1 m ρ c (Proc.devRef .tc main_v3) : Arr2 1 29) = rowOf (m ((c : Thread nD τ).loc main_arg9)) := by
  show StableHlo.after hostOps0 (W0 m ρ c) (Proc.devRef .tc main_v3) = _
  after_results
  exact reshape_row _ _
theorem W1_v4 (c : Dev nD) : (W1 m ρ c (Proc.devRef .tc main_v4) : Arr2 15 15) = m ((c : Thread nD τ).loc main_arg4) := by
  show StableHlo.after hostOps0 (W0 m ρ c) (Proc.devRef .tc main_v4) = _
  after_results
  rfl
theorem W1_v5 (c : Dev nD) : (W1 m ρ c (Proc.devRef .tc main_v5) : Arr2 1230 300) = m ((c : Thread nD τ).loc main_arg6) := by
  show StableHlo.after hostOps0 (W0 m ρ c) (Proc.devRef .tc main_v5) = _
  after_results
  rfl
theorem W1_v6 (c : Dev nD) : (W1 m ρ c (Proc.devRef .tc main_v6) : Arr2 300 29) = m ((c : Thread nD τ).loc main_arg8) := by
  show StableHlo.after hostOps0 (W0 m ρ c) (Proc.devRef .tc main_v6) = _
  after_results
  rfl
theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl

/-! ## What each region leaves, as hypotheses at any entry contents -/

section Regions

variable
  (h0 : ∀ (V : (c : Dev nD) → (b : Ref sig .tc) → Buf (Elt Ideal) ((c : Thread nD τ).loc b)) (c : Dev nD),
    (dat0 (F := Ideal) V c).arrAt 2 cfg0.N = proj (V c main_arg0) (V c main_arg2))
  (h1 : ∀ (V : (c : Dev nD) → (b : Ref sig .tc) → Buf (Elt Ideal) ((c : Thread nD τ).loc b)) (c : Dev nD),
    (dat1 (F := Ideal) V c).arrAt 4 cfg1.N = layer1 (V c main_arg1) (V c main_v7) (V c main_v0) (V c main_v4))
  (h2 : ∀ (V : (c : Dev nD) → (b : Ref sig .tc) → Buf (Elt Ideal) ((c : Thread nD τ).loc b)) (c : Dev nD),
    (dat2 (F := Ideal) V c).arrAt 3 cfg2.N = layer2 (V c main_arg1) (V c main_v8) (V c main_v1))
  (h3 : ∀ (V : (c : Dev nD) → (b : Ref sig .tc) → Buf (Elt Ideal) ((c : Thread nD τ).loc b)) (c : Dev nD),
    (dat3 (F := Ideal) V c).arrAt 5 cfg3.N
      = head (V c main_v10) (V c main_v5) (V c main_v2) (V c main_v6) (V c main_v3))

/-! ## The second boundary: after region 0 -/

include h0 in
/-- Region 0's output array holds the projected features. -/
theorem W2_v7 (c : Dev nD) :
    (W2 m ρ c (Proc.devRef .tc main_v7) : Arr3 4096 82 15)
      = proj (m ((c : Thread nD τ).loc main_arg0)) (m ((c : Thread nD τ).loc main_arg2)) := by
  have e0 : V1 m ρ c main_arg0 = m ((c : Thread nD τ).loc main_arg0) := W1_arg0 m ρ c
  have e2 : V1 m ρ c main_arg2 = m ((c : Thread nD τ).loc main_arg2) := W1_arg2 m ρ c
  refine (W2_arr m ρ c 2).trans ((h0 (V1 m ρ) c).trans ?_)
  rw [e0, e2]
theorem W2_arg1 (c : Dev nD) : W2 m ρ c (Proc.devRef .tc main_arg1) = m ((c : Thread nD τ).loc main_arg1) :=
  (W2_of_ne m ρ c main_arg1 (by decide)).trans (W1_arg1 m ρ c)
theorem W2_v0 (c : Dev nD) : (W2 m ρ c (Proc.devRef .tc main_v0) : Arr2 1 15) = rowOf (m ((c : Thread nD τ).loc main_arg3)) :=
  (W2_of_ne m ρ c main_v0 (by decide)).trans (W1_v0 m ρ c)
theorem W2_v1 (c : Dev nD) : (W2 m ρ c (Proc.devRef .tc main_v1) : Arr2 1 15) = rowOf (m ((c : Thread nD τ).loc main_arg5)) :=
  (W2_of_ne m ρ c main_v1 (by decide)).trans (W1_v1 m ρ c)
theorem W2_v4 (c : Dev nD) : (W2 m ρ c (Proc.devRef .tc main_v4) : Arr2 15 15) = m ((c : Thread nD τ).loc main_arg4) :=
  (W2_of_ne m ρ c main_v4 (by decide)).trans (W1_v4 m ρ c)

/-! ## The third boundary: after region 1 -/

/-- The first convolution's output with the second weight matrix applied, of the arguments. -/
def t2 (c : Dev nD) : Arr3 4096 82 15 :=
  layer1 (m ((c : Thread nD τ).loc main_arg1))
    (proj (m ((c : Thread nD τ).loc main_arg0)) (m ((c : Thread nD τ).loc main_arg2)))
    (rowOf (m ((c : Thread nD τ).loc main_arg3))) (m ((c : Thread nD τ).loc main_arg4))

include h0 h1 in
theorem W3_v8 (c : Dev nD) : (W3 m ρ c (Proc.devRef .tc main_v8) : Arr3 4096 82 15) = t2 m c := by
  have e1 : V2 m ρ c main_arg1 = m ((c : Thread nD τ).loc main_arg1) := W2_arg1 m ρ c
  have e7 : (V2 m ρ c main_v7 : Arr3 4096 82 15) = _ := W2_v7 m ρ h0 c
  have eb : (V2 m ρ c main_v0 : Arr2 1 15) = _ := W2_v0 m ρ c
  have ew : (V2 m ρ c main_v4 : Arr2 15 15) = _ := W2_v4 m ρ c
  refine (W3_arr m ρ c 4).trans ((h1 (V2 m ρ) c).trans ?_)
  rw [e1, e7, eb, ew]; rfl
theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)
theorem W3_v1 (c : Dev nD) : (W3 m ρ c (Proc.devRef .tc main_v1) : Arr2 1 15) = rowOf (m ((c : Thread nD τ).loc main_arg5)) :=
  (W3_of_ne m ρ c main_v1 (by decide)).trans (W2_v1 m ρ c)

/-! ## The fourth boundary: after region 2 -/

/-- The second convolution's output, of the arguments. -/
def h2out (c : Dev nD) : Arr3 4096 82 15 :=
  layer2 (m ((c : Thread nD τ).loc main_arg1)) (t2 m c) (rowOf (m ((c : Thread nD τ).loc main_arg5)))

include h0 h1 h2 in
theorem W4_v9 (c : Dev nD) : (W4 m ρ c (Proc.devRef .tc main_v9) : Arr3 4096 82 15) = h2out m c := by
  have e1 : V3 m ρ c main_arg1 = m ((c : Thread nD τ).loc main_arg1) := W3_arg1 m ρ c
  have e8 : (V3 m ρ c main_v8 : Arr3 4096 82 15) = _ := W3_v8 m ρ h0 h1 c
  have eb : (V3 m ρ c main_v1 : Arr2 1 15) = _ := W3_v1 m ρ c
  refine (W4_arr m ρ c 3).trans ((h2 (V3 m ρ) c).trans ?_)
  rw [e1, e8, eb]; rfl

/-- A buffer the host wrote before region 0 and no region writes is, at the fourth boundary, what it was at the first. -/
theorem W4_of_host (c : Dev nD) (b : Ref sig .tc) (n0 : ∀ w, Pipeline.arrRef spec0 w ≠ b) (n1 : ∀ w, Pipeline.arrRef spec1 w ≠ b)
    (n2 : ∀ w, Pipeline.arrRef spec2 w ≠ b) : W4 m ρ c (Proc.devRef .tc b) = W1 m ρ c (Proc.devRef .tc b) :=
  (W4_of_ne m ρ c b n2).trans ((W3_of_ne m ρ c b n1).trans (W2_of_ne m ρ c b n0))

/-! ## The fifth boundary: after the reshape -/

include h0 h1 h2 in
theorem W5_v10 (c : Dev nD) : (W5 m ρ c (Proc.devRef .tc main_v10) : Arr2 4096 1230) = flatten (h2out m c) := by
  have e9 := W4_v9 m ρ h0 h1 h2 c
  show StableHlo.after hostOps3 (W4 m ρ c) (Proc.devRef .tc main_v10) = _
  after_results
  rw [← e9]
  exact reshape_flatten _ _
theorem W5_v5 (c : Dev nD) : (W5 m ρ c (Proc.devRef .tc main_v5) : Arr2 1230 300) = m ((c : Thread nD τ).loc main_arg6) := by
  have e := (W4_of_host m ρ c main_v5 (by decide) (by decide) (by decide)).trans (W1_v5 m ρ c)
  show StableHlo.after hostOps3 (W4 m ρ c) (Proc.devRef .tc main_v5) = _
  after_results
  exact e
theorem W5_v2 (c : Dev nD) : (W5 m ρ c (Proc.devRef .tc main_v2) : Arr2 1 300) = rowOf (m ((c : Thread nD τ).loc main_arg7)) := by
  have e := (W4_of_host m ρ c main_v2 (by decide) (by decide) (by decide)).trans (W1_v2 m ρ c)
  show StableHlo.after hostOps3 (W4 m ρ c) (Proc.devRef .tc main_v2) = _
  after_results
  exact e
theorem W5_v6 (c : Dev nD) : (W5 m ρ c (Proc.devRef .tc main_v6) : Arr2 300 29) = m ((c : Thread nD τ).loc main_arg8) := by
  have e := (W4_of_host m ρ c main_v6 (by decide) (by decide) (by decide)).trans (W1_v6 m ρ c)
  show StableHlo.after hostOps3 (W4 m ρ c) (Proc.devRef .tc main_v6) = _
  after_results
  exact e
theorem W5_v3 (c : Dev nD) : (W5 m ρ c (Proc.devRef .tc main_v3) : Arr2 1 29) = rowOf (m ((c : Thread nD τ).loc main_arg9)) := by
  have e := (W4_of_host m ρ c main_v3 (by decide) (by decide) (by decide)).trans (W1_v3 m ρ c)
  show StableHlo.after hostOps3 (W4 m ρ c) (Proc.devRef .tc main_v3) = _
  after_results
  exact e

/-! ## The last boundary: after region 3 -/

include h0 h1 h2 h3 in
/-- The result buffer at the last boundary is the network of the ten arguments. -/
theorem W6_v11 (c : Dev nD) :
    (W6 m ρ c (Proc.devRef .tc main_v11) : Arr2 4096 29)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  have e10 : (V5 m ρ c main_v10 : Arr2 4096 1230) = _ := W5_v10 m ρ h0 h1 h2 c
  have e5 : (V5 m ρ c main_v5 : Arr2 1230 300) = _ := W5_v5 m ρ c
  have e2 : (V5 m ρ c main_v2 : Arr2 1 300) = _ := W5_v2 m ρ c
  have e6 : (V5 m ρ c main_v6 : Arr2 300 29) = _ := W5_v6 m ρ c
  have e3 : (V5 m ρ c main_v3 : Arr2 1 29) = _ := W5_v3 m ρ c
  refine (W6_arr m ρ c 5).trans ((h3 (V5 m ρ) c).trans ?_)
  rw [e10, e5, e2, e6, e3]; rfl

end Regions

end Cert.KernelIdeal.Chain

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.Region0.lean ====
/-
  The first kernel region: 256 grid points, each staging 16 graphs' node features (16×82×10) and the whole first
  weight matrix (10×15), and writing back the 16 products (16×82×15). After the last write-back the output array
  holds `x · W₁` graph by graph: the region's blocks are the consecutive runs of 16 graphs, which tile the batch.

  The body stores one 1×82×15 slab per graph of the block, and every slab is the same function of the weights and of
  that graph's features (`slab`): on the extended reals, where rounding is the identity and a product accumulated into
  zeros is the plain sum, its entry `(n, e)` is `Σₛ x[n, s] · w[s, e]` (`slab_apply`). The sixteen slabs tile the block, so
  the block after the body is `(j, n, e) ↦ Σₛ x[j, n, s] · w[s, e]` (`out0_2_apply`). Point `t` stages graphs
  `16t … 16t + 15` of the features and of the output and the whole weight matrix (`idx_facts`), so what it writes back is
  block `t` of `proj` (`flushed_eq`); graph `g` lies in the block of point `g / 16` (`cover`); hence the array (`final0`).
-/
import proofs.«106284_g79757542687100_cont_9to1c4b_149_5_alg».proof.Proof.Gen.KernelIdeal.Frame
import proofs.«106284_g79757542687100_cont_9to1c4b_149_5_alg».proof.Proof.Spec
import proofs.«106284_g79757542687100_cont_9to1c4b_149_5_alg».proof.Proof.LibPlainDot
import Idealize.ShloMosaic.Lib.ValueLayout
import Idealize.ShloMosaic.Lib.Pipeline.Value

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen Cert.Gcn

/-- One graph's product as the block holds it: the graph's 82×10 features and the 10×15 weights, each rounded, multiplied
    into zeros, the product rounded, laid out as a 1×82×15 slab. -/
def slab {F : FTy → Type} [FloatOps F] (w : Vec F S10x15 .f32) (x : Vec F S1x82x10 .f32) : FVec F S1x82x15 .bf16 :=
  shapeCast S1x82x15
    (truncf .bf16
      (matmul dot_S82x10_S10x15_S82x15_1_0_0_1_n_n none
        (truncf .bf16 (shapeCast S82x10 x shapeCasts_S1x82x10_S82x10) bitsLt_bf16_f32)
        (truncf .bf16 w bitsLt_bf16_f32)
        (constant S82x15 .f32 0x00000000#32))
      bitsLt_bf16_f32)
    shapeCasts_S82x15_S1x82x15

/-! Each of the sixteen stored slabs is that one function of the weights and of its graph's features: the body's text
    names the rounded weights, one graph's rounded features and the zeros once and reuses them, which changes no value. -/

section Slabs
variable {F : FTy → Type} [FloatOps F] (w : Vec F S10x15 .f32) (x : Vec F S1x82x10 .f32)

theorem pay2_eq : k0_pay2 (k0_pay3 w) x = slab w x := rfl
theorem pay1_eq : k0_pay1 (k0_pay19 (k0_pay3 w) x) = slab w x := rfl
theorem pay18_eq : k0_pay18 (k0_pay3 w) x = slab w x := rfl
theorem pay17_eq : k0_pay17 (k0_pay3 w) x = slab w x := rfl
theorem pay16_eq : k0_pay16 (k0_pay3 w) x = slab w x := rfl
theorem pay15_eq : k0_pay15 (k0_pay3 w) x = slab w x := rfl
theorem pay14_eq : k0_pay14 (k0_pay3 w) x = slab w x := rfl
theorem pay13_eq : k0_pay13 (k0_pay3 w) x = slab w x := rfl
theorem pay12_eq : k0_pay12 (k0_pay3 w) x = slab w x := rfl
theorem pay11_eq : k0_pay11 (k0_pay3 w) x = slab w x := rfl
theorem pay10_eq : k0_pay10 (k0_pay3 w) x = slab w x := rfl
theorem pay9_eq : k0_pay9 (k0_pay3 w) x = slab w x := rfl
theorem pay8_eq : k0_pay8 (k0_pay3 w) (k0_pay7 x) (constant S82x15 .f32 0x00000000#32) = slab w x := rfl
theorem pay6_eq : k0_pay6 w x = slab w x := rfl
theorem pay5_eq : k0_pay5 w x = slab w x := rfl
theorem pay4_eq : k0_pay4 w x = slab w x := rfl
end Slabs

/-- A slab's entry at node `n` and output feature `e` is `Σₛ x[0, n, s] · w[s, e]` on the extended reals, where rounding
    is the identity and the zero accumulator adds nothing. -/
theorem slab_apply (w : Vec Ideal S10x15 .f32) (x : Vec Ideal S1x82x10 .f32) (u : Fin 1) (n : Fin 82) (e : Fin 15) :
    slab (F := Ideal) w x (ix3 u n e) = ∑ s : Fin 10, x (ix3 (0 : Fin 1) n s) * w (ix2 s e) := by
  unfold slab
  refine (shapeCast_ab_1ab_apply _ _ u n e).trans ?_
  refine (PlainDot.matmul_zero_apply 82 10 15 none _ _ n e).trans ?_
  refine Finset.sum_congr rfl fun s _ => ?_
  exact congrArg (· * w (ix2 s e)) (shapeCast_1ab_ab_apply x _ n s)

/-- The block's products: entry `(j, n, e)` is `Σₛ x[j, n, s] · w[s, e]`. -/
def blockProj (x : Vec Ideal S16x82x10 .f32) (w : Vec Ideal S10x15 .f32) : Vec Ideal S16x82x15 .bf16 := fun y =>
  let j : Fin 16 := y 0
  let n : Fin 82 := y 1
  let e : Fin 15 := y 2
  ∑ s : Fin 10, x (ix3 j n s) * w (ix2 s e)

/-- The slab of graph `j` of the block, read off the block and the weights through their rectangles, is graph `j`'s part
    of the block's products. -/
theorem piece_eq (x : Vec Ideal S16x82x10 .f32) (w : Vec Ideal S10x15 .f32) (j : Nat)
    (inbw : ∀ a, (![0, 0] : Fin 2 → Nat) a + S10x15.size a ≤ S10x15.size a)
    (inbx : ∀ a, (![j, 0, 0] : Fin 3 → Nat) a + S1x82x10.size a ≤ S16x82x10.size a)
    (inby : ∀ a, (![j, 0, 0] : Fin 3 → Nat) a + S1x82x15.size a ≤ S16x82x15.size a)
    (y : S1x82x15.Idx) :
    slab (F := Ideal) (View.ld w (Rect.unit (s := S10x15) ![0, 0] S10x15.size inbw))
        (View.ld x (Rect.unit (s := S16x82x10) ![j, 0, 0] S1x82x10.size inbx)) y
      = blockProj x w ((Rect.unit (s := S16x82x15) ![j, 0, 0] S1x82x15.size inby).emb y) := by
  obtain ⟨u, n, e, rfl⟩ : ∃ (u : Fin 1) (n : Fin 82) (e : Fin 15), y = ix3 u n e := ⟨y 0, y 1, y 2, eq_ix3 y⟩
  refine (slab_apply _ _ u n e).trans ?_
  refine Finset.sum_congr rfl fun s _ => ?_
  have hu : u.val = 0 := by omega
  refine congrArg₂ (· * ·) (congrArg x (funext fun a => Fin.ext ?_)) (congrArg w (funext fun a => Fin.ext ?_))
  · match a with
    | ⟨0, _⟩ => show j + 1 * (0 : Fin 1).val = j + 1 * u.val; rw [hu]; rfl
    | ⟨1, _⟩ => rfl
    | ⟨2, _⟩ => show 0 + 1 * s.val = s.val; omega
  · match a with
    | ⟨0, _⟩ => show 0 + 1 * s.val = s.val; omega
    | ⟨1, _⟩ => show 0 + 1 * e.val = 0 + 1 * e.val; rfl

/-- What the body leaves in the output block, entry by entry: the block's products. -/
theorem out0_2_apply (x0 : Vec Ideal S16x82x10 .f32) (x1 : Vec Ideal S10x15 .f32) (y : S16x82x15.Idx) :
    out0_2 (F := Ideal) x0 x1 y = blockProj x0 x1 y := by
  unfold out0_2
  refine View.canon_apply_of_pieces (blockProj x0 x1) _ ?_ y (cover0_2 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun y => (congrFun (pay2_eq _ _) y).trans (piece_eq x0 x1 15 inb_S10x15_S10x15_0_0 inb_S16x82x10_S1x82x10_15_0_0 inb_S16x82x15_S1x82x15_15_0_0 y)
  · exact fun y => (congrFun (pay1_eq _ _) y).trans (piece_eq x0 x1 14 inb_S10x15_S10x15_0_0 inb_S16x82x10_S1x82x10_14_0_0 inb_S16x82x15_S1x82x15_14_0_0 y)
  · exact fun y => (congrFun (pay18_eq _ _) y).trans (piece_eq x0 x1 13 inb_S10x15_S10x15_0_0 inb_S16x82x10_S1x82x10_13_0_0 inb_S16x82x15_S1x82x15_13_0_0 y)
  · exact fun y => (congrFun (pay17_eq _ _) y).trans (piece_eq x0 x1 12 inb_S10x15_S10x15_0_0 inb_S16x82x10_S1x82x10_12_0_0 inb_S16x82x15_S1x82x15_12_0_0 y)
  · exact fun y => (congrFun (pay16_eq _ _) y).trans (piece_eq x0 x1 11 inb_S10x15_S10x15_0_0 inb_S16x82x10_S1x82x10_11_0_0 inb_S16x82x15_S1x82x15_11_0_0 y)
  · exact fun y => (congrFun (pay15_eq _ _) y).trans (piece_eq x0 x1 10 inb_S10x15_S10x15_0_0 inb_S16x82x10_S1x82x10_10_0_0 inb_S16x82x15_S1x82x15_10_0_0 y)
  · exact fun y => (congrFun (pay14_eq _ _) y).trans (piece_eq x0 x1 9 inb_S10x15_S10x15_0_0 inb_S16x82x10_S1x82x10_9_0_0 inb_S16x82x15_S1x82x15_9_0_0 y)
  · exact fun y => (congrFun (pay13_eq _ _) y).trans (piece_eq x0 x1 8 inb_S10x15_S10x15_0_0 inb_S16x82x10_S1x82x10_8_0_0 inb_S16x82x15_S1x82x15_8_0_0 y)
  · exact fun y => (congrFun (pay12_eq _ _) y).trans (piece_eq x0 x1 7 inb_S10x15_S10x15_0_0 inb_S16x82x10_S1x82x10_7_0_0 inb_S16x82x15_S1x82x15_7_0_0 y)
  · exact fun y => (congrFun (pay11_eq _ _) y).trans (piece_eq x0 x1 6 inb_S10x15_S10x15_0_0 inb_S16x82x10_S1x82x10_6_0_0 inb_S16x82x15_S1x82x15_6_0_0 y)
  · exact fun y => (congrFun (pay10_eq _ _) y).trans (piece_eq x0 x1 5 inb_S10x15_S10x15_0_0 inb_S16x82x10_S1x82x10_5_0_0 inb_S16x82x15_S1x82x15_5_0_0 y)
  · exact fun y => (congrFun (pay9_eq _ _) y).trans (piece_eq x0 x1 4 inb_S10x15_S10x15_0_0 inb_S16x82x10_S1x82x10_4_0_0 inb_S16x82x15_S1x82x15_4_0_0 y)
  · exact fun y => (congrFun (pay8_eq _ _) y).trans (piece_eq x0 x1 3 inb_S10x15_S10x15_0_0 inb_S16x82x10_S1x82x10_3_0_0 inb_S16x82x15_S1x82x15_3_0_0 y)
  · exact fun y => (congrFun (pay6_eq _ _) y).trans (piece_eq x0 x1 2 inb_S10x15_S10x15_0_0 inb_S16x82x10_S1x82x10_2_0_0 inb_S16x82x15_S1x82x15_2_0_0 y)
  · exact fun y => (congrFun (pay5_eq _ _) y).trans (piece_eq x0 x1 1 inb_S10x15_S10x15_0_0 inb_S16x82x10_S1x82x10_1_0_0 inb_S16x82x15_S1x82x15_1_0_0 y)
  · exact fun y => (congrFun (pay4_eq _ _) y).trans (piece_eq x0 x1 0 inb_S10x15_S10x15_0_0 inb_S16x82x10_S1x82x10_0_0_0 inb_S16x82x15_S1x82x15_0_0_0 y)

variable (V : (c : Dev nD) → (b : Ref sig .tc) → Buf (Elt Ideal) ((c : Thread nD τ).loc b))

/-- The three windows' block indices at grid point `t`, decided over the 256 points: point `t` stages graphs
    `16t … 16t + 15` with every node and feature, and the whole weight matrix. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of `proj` of the two arrays the region reads. -/
theorem flushed_eq (c : Dev nD) (t : Fin cfg0.N) :
    (dat0 (F := Ideal) V c).flushed 2 t
      = ((cfg0.win 2).blk t).view.read (Elt Ideal) (proj (V c main_arg0) (V c main_arg2)) := by
  show (cfg0.win 2).cut (grid0.coords t) ((dat0 V c).after 2 t) = _
  rw [after0_2]
  obtain ⟨a0, a1, a2, w0, w1, o0, o1, o2⟩ := idx_facts t
  funext y
  show out0_2 (iblk0 V c 0 t) (iblk0 V c 1 t) y
    = proj (V c main_arg0) (V c main_arg2) (((cfg0.win 2).blk t).view.emb y)
  refine (out0_2_apply (iblk0 V c 0 t) (iblk0 V c 1 t) y).trans ?_
  refine Finset.sum_congr rfl fun s _ => ?_
  refine congrArg₂ (· * ·) ?_ ?_
  · show V c main_arg0 (((cfg0.win 0).blk t).view.emb (ix3 (y 0) (y 1) s)) = _
    refine congrArg (V c main_arg0) (funext fun a => Fin.ext ?_)
    match a with
    | ⟨0, _⟩ =>
      show win0_0.index t (0 : Fin 3) * 16 + 1 * (y 0).val = win0_2.index t (0 : Fin 3) * 16 + 1 * (y 0).val
      rw [a0, o0]
    | ⟨1, _⟩ =>
      show win0_0.index t (1 : Fin 3) * 82 + 1 * (y 1).val = win0_2.index t (1 : Fin 3) * 82 + 1 * (y 1).val
      rw [a1, o1]
    | ⟨2, _⟩ =>
      show win0_0.index t (2 : Fin 3) * 10 + 1 * s.val = s.val
      omega
  · show V c main_arg2 (((cfg0.win 1).blk t).view.emb (ix2 s (y 2))) = _
    refine congrArg (V c main_arg2) (funext fun a => Fin.ext ?_)
    match a with
    | ⟨0, _⟩ =>
      show win0_1.index t (0 : Fin 2) * 10 + 1 * s.val = s.val
      omega
    | ⟨1, _⟩ =>
      show win0_1.index t (1 : Fin 2) * 15 + 1 * (y 2).val = win0_2.index t (2 : Fin 3) * 15 + 1 * (y 2).val
      rw [w1, o2]

/-- An index of the output array lies in point `t`'s block iff each coordinate lies in the block's range on its axis. -/
theorem mem_blk (t : Fin cfg0.N) (i : S4096x82x15.Idx) :
    i ∈ ((cfg0.win 2).blk t).view.set
      ↔ ∀ a : Fin 3, win0_2.index t a * S16x82x15.size a ≤ (i a).val
          ∧ (i a).val < win0_2.index t a * S16x82x15.size a + S16x82x15.size a := by
  show i ∈ ((View.whole main_v7).slice (win0_2.rect t)).set ↔ _
  rw [View.set_slice_whole, Rect.mem_set_unit]
  exact Iff.rfl

/-- Every index of the output array lies in the block of the point that stages its graph: graph `g` belongs to point
    `g / 16`, and a block holds every node and feature of its 16 graphs. -/
theorem cover (i : S4096x82x15.Idx) :
    ∃ t : Fin cfg0.N, (cfg0.win 2).flush t = true ∧ i ∈ ((cfg0.win 2).blk t).view.set := by
  have h0 : (i 0).val < 4096 := (i 0).isLt
  have h1 : (i 1).val < 82 := (i 1).isLt
  have h2 : (i 2).val < 15 := (i 2).isLt
  have hN : grid0.N = 256 := N_0
  have ht : (i 0).val / 16 < cfg0.N := by show (i 0).val / 16 < grid0.N; rw [hN]; omega
  obtain ⟨-, -, -, -, -, o0, o1, o2⟩ := idx_facts ⟨(i 0).val / 16, ht⟩
  refine ⟨⟨(i 0).val / 16, ht⟩, flush0_2 _, ?_⟩
  rw [mem_blk]
  intro a
  match a with
  | ⟨0, _⟩ =>
    show win0_2.index ⟨(i 0).val / 16, ht⟩ (0 : Fin 3) * 16 ≤ (i 0).val
      ∧ (i 0).val < win0_2.index ⟨(i 0).val / 16, ht⟩ (0 : Fin 3) * 16 + 16
    rw [o0]
    show (i 0).val / 16 * 16 ≤ (i 0).val ∧ (i 0).val < (i 0).val / 16 * 16 + 16
    omega
  | ⟨1, _⟩ =>
    show win0_2.index ⟨(i 0).val / 16, ht⟩ (1 : Fin 3) * 82 ≤ (i 1).val
      ∧ (i 1).val < win0_2.index ⟨(i 0).val / 16, ht⟩ (1 : Fin 3) * 82 + 82
    rw [o1]
    omega
  | ⟨2, _⟩ =>
    show win0_2.index ⟨(i 0).val / 16, ht⟩ (2 : Fin 3) * 15 ≤ (i 2).val
      ∧ (i 2).val < win0_2.index ⟨(i 0).val / 16, ht⟩ (2 : Fin 3) * 15 + 15
    rw [o2]
    omega

/-- After region 0 its output array is `proj` of the two arrays it reads. -/
theorem final0 (c : Dev nD) :
    (dat0 (F := Ideal) V c).arrAt 2 cfg0.N = proj (V c main_arg0) (V c main_arg2) := by
  exact (dat0 (F := Ideal) V c).arrAt_eq_of_cover 2 (proj (V c main_arg0) (V c main_arg2)) (fun t _ => flushed_eq V c t) cover

end Cert.KernelIdeal.RegionValue

end
-- ==== Proof.Region1.lean ====
/-
  The second kernel region: 256 grid points, each staging 16 graphs' adjacency matrices (16×82×82), the matching 16
  blocks of projected features (16×82×15), the bias row (1×15) and the second weight matrix (15×15), and writing back
  `relu (A · t + b) · W₂` for those 16 graphs.
-/
import proofs.«106284_g79757542687100_cont_9to1c4b_149_5_alg».proof.Proof.Gen.KernelIdeal.Frame
import proofs.«106284_g79757542687100_cont_9to1c4b_149_5_alg».proof.Proof.Spec
import proofs.«106284_g79757542687100_cont_9to1c4b_149_5_alg».proof.Proof.LibPlainDot
import Idealize.ShloMosaic.Lib.Pipeline.Value

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

/-- Prepending the unit coordinate to a two-axis index. -/
private theorem cons_zero_ix2 {a b : Nat} (p : Fin a) (q : Fin b) :
    (Fin.cons (⟨0, Nat.one_pos⟩ : Fin 1) (ix2 p q) : (⟨3, ![1, a, b]⟩ : Shape).Idx) = ix3 (0 : Fin 1) p q := by
  funext d
  match d with
  | ⟨0, _⟩ => rfl
  | ⟨1, _⟩ => rfl
  | ⟨2, _⟩ => rfl

/-- Dropping the unit coordinate of a three-axis index. -/
private theorem succ_ix3 {a b : Nat} (p : Fin a) (q : Fin b) :
    (fun d : Fin 2 => (ix3 (0 : Fin 1) p q : (⟨3, ![1, a, b]⟩ : Shape).Idx) d.succ) = ix2 p q := by
  funext d
  match d with
  | ⟨0, _⟩ => rfl
  | ⟨1, _⟩ => rfl

/-- One graph's slab of the body at node `n` and output feature `f`: the adjacency row times the projected features,
    plus the bias, rectified, then times the second weight matrix. -/
private theorem slab_apply (b : Vec Ideal S1x15 .f32) (w : Vec Ideal S15x15 .bf16) (a : Vec Ideal S1x82x82 .f32) (t : Vec Ideal S1x82x15 .bf16)
    (n : Fin 82) (f : Fin 15) :
    k1_pay22 (F := Ideal) b w a t (ix3 (0 : Fin 1) n f)
      = ∑ e : Fin 15, relu ((∑ k : Fin 82, a (ix3 (0 : Fin 1) n k) * t (ix3 (0 : Fin 1) k e)) + b (ix2 (0 : Fin 1) e)) * w (ix2 e f) := by
  unfold k1_pay22
  refine (shapeCast_addUnit_apply ![82, 15] _ _ (ix3 (0 : Fin 1) n f)).trans ?_
  rw [succ_ix3]
  refine (PlainDot.matmul_zero_apply (φ₁ := .bf16) (φ₂ := .bf16) 82 15 15 none _ w n f).trans ?_
  refine Finset.sum_congr rfl fun e _ => ?_
  refine congrArg (· * w (ix2 e f)) ?_
  show max (_ + _) (Ideal.ofBits .f32 0x00000000#32) = relu _
  unfold relu
  rw [Ideal.ofBits_zero_f32]
  refine congrArg (max · 0) ?_
  refine congrArg₂ (· + ·) ?_ ?_
  · refine (PlainDot.matmul_zero_apply (φ₁ := .bf16) (φ₂ := .bf16) 82 82 15 none _ _ n e).trans ?_
    refine Finset.sum_congr rfl fun k _ => ?_
    refine congrArg₂ (· * ·) ?_ ?_
    · exact (shapeCast_dropUnit_apply ![82, 82] a _ (ix2 n k)).trans (congrArg a (cons_zero_ix2 n k))
    · exact (shapeCast_dropUnit_apply ![82, 15] t _ (ix2 k e)).trans (congrArg t (cons_zero_ix2 k e))
  · refine broadcastTo_apply b _ (ix2 n e) (ix2 (0 : Fin 1) e) fun d => ?_
    match d with
    | ⟨0, _⟩ => rfl
    | ⟨1, _⟩ => rfl

/-- What the body leaves in a block of 16 graphs, as one function of the block's index `(j, n, f)`. -/
private def blockFn (a : Vec Ideal S16x82x82 .f32) (t : Vec Ideal S16x82x15 .bf16) (b : Vec Ideal S1x15 .f32) (w : Vec Ideal S15x15 .bf16) :
    Vec Ideal S16x82x15 .bf16 := fun y =>
  ∑ e : Fin 15, relu ((∑ k : Fin 82, a (ix3 (y 0 : Fin 16) (y 1 : Fin 82) k) * t (ix3 (y 0 : Fin 16) k e)) + b (ix2 (0 : Fin 1) e))
    * w (ix2 e (y 2 : Fin 15))

private theorem blockFn_apply (a : Vec Ideal S16x82x82 .f32) (t : Vec Ideal S16x82x15 .bf16) (b : Vec Ideal S1x15 .f32) (w : Vec Ideal S15x15 .bf16)
    (j : Fin 16) (n : Fin 82) (f : Fin 15) :
    blockFn a t b w (ix3 j n f)
      = ∑ e : Fin 15, relu ((∑ k : Fin 82, a (ix3 j n k) * t (ix3 j k e)) + b (ix2 (0 : Fin 1) e)) * w (ix2 e f) := rfl

private theorem hz2 : (![0, 0] : Fin 2 → Nat) = fun _ => 0 := funext fun a => by fin_cases a <;> rfl

/-- The bias row and the weight matrix are loaded whole. -/
private theorem bias_whole (x2 : Vec Ideal S1x15 .f32) : k1_pay1 (F := Ideal) (View.ld x2 r1_0) = x2 := by
  unfold k1_pay1
  rw [shapeCast_self, View.ld_unit_zero hz2]

private theorem weight_whole (x3 : Vec Ideal S15x15 .bf16) : k1_pay2 (F := Ideal) (View.ld x3 r1_1) = x3 := by
  unfold k1_pay2
  rw [shapeCast_self, View.ld_unit_zero hz2]

/-- Slab `j` of a block: row `(0, n, ·)` of the slab is row `(j, n, ·)` of the block. -/
private theorem slab_idx {c : Nat} (j : Nat) (hj : j < 16)
    (inb : ∀ a, (![j, 0, 0] : Fin 3 → Nat) a + (⟨3, ![1, 82, c]⟩ : Shape).size a ≤ (⟨3, ![16, 82, c]⟩ : Shape).size a)
    (p : Fin 82) (q : Fin c) :
    (Rect.unit (s := ⟨3, ![16, 82, c]⟩) ![j, 0, 0] (⟨3, ![1, 82, c]⟩ : Shape).size inb).idx (ix3 (0 : Fin 1) p q)
      = ix3 (⟨j, hj⟩ : Fin 16) p q := by
  funext a
  apply Fin.ext
  match a with
  | ⟨0, _⟩ => rfl
  | ⟨1, _⟩ => show 0 + 1 * p.val = p.val; omega
  | ⟨2, _⟩ => show 0 + 1 * q.val = q.val; omega

/-- The payload stored as slab `j` is the block's function on that slab. -/
private theorem piece_eq (j : Nat) (hj : j < 16)
    (inbA : ∀ a, (![j, 0, 0] : Fin 3 → Nat) a + S1x82x82.size a ≤ S16x82x82.size a)
    (inbT : ∀ a, (![j, 0, 0] : Fin 3 → Nat) a + S1x82x15.size a ≤ S16x82x15.size a)
    (x0 : Vec Ideal S16x82x82 .f32) (x1 : Vec Ideal S16x82x15 .bf16) (x2 : Vec Ideal S1x15 .f32) (x3 : Vec Ideal S15x15 .bf16)
    (x : S1x82x15.Idx) :
    k1_pay22 (F := Ideal) (k1_pay1 (View.ld x2 r1_0)) (k1_pay2 (View.ld x3 r1_1))
        (View.ld x0 (Rect.unit (s := S16x82x82) ![j, 0, 0] S1x82x82.size inbA))
        (View.ld x1 (Rect.unit (s := S16x82x15) ![j, 0, 0] S1x82x15.size inbT)) x
      = blockFn x0 x1 x2 x3 ((Rect.unit (s := S16x82x15) ![j, 0, 0] S1x82x15.size inbT).emb x) := by
  obtain ⟨z, n, f, rfl⟩ : ∃ (z : Fin 1) (n : Fin 82) (f : Fin 15), x = ix3 z n f := ⟨x 0, x 1, x 2, eq_ix3 x⟩
  obtain rfl : z = 0 := Subsingleton.elim _ _
  rw [bias_whole, weight_whole]
  refine (slab_apply x2 x3 _ _ n f).trans ?_
  refine Eq.trans ?_ (congrArg (blockFn x0 x1 x2 x3) (slab_idx j hj inbT n f)).symm
  rw [blockFn_apply]
  refine Finset.sum_congr rfl fun e _ => ?_
  refine congrArg (fun z => relu (z + x2 (ix2 (0 : Fin 1) e)) * x3 (ix2 e f)) ?_
  refine Finset.sum_congr rfl fun k _ => ?_
  exact congrArg₂ (· * ·) (congrArg x0 (slab_idx j hj inbA n k)) (congrArg x1 (slab_idx j hj inbT k e))

/-- The block the body leaves is `blockFn` of the four input blocks: each of the sixteen stores writes the
    slab of that one function its rectangle names, and the sixteen slabs cover the block. -/
private theorem out1_4_eq (x0 : Vec Ideal S16x82x82 .f32) (x1 : Vec Ideal S16x82x15 .bf16) (x2 : Vec Ideal S1x15 .f32) (x3 : Vec Ideal S15x15 .bf16) :
    out1_4 (F := Ideal) x0 x1 x2 x3 = blockFn x0 x1 x2 x3 := by
  funext y
  unfold out1_4
  refine View.canon_apply_of_pieces (blockFn x0 x1 x2 x3) _ ?_ y (cover1_4 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun x => piece_eq 15 (by omega) _ _ x0 x1 x2 x3 x
  · exact fun x => piece_eq 14 (by omega) _ _ x0 x1 x2 x3 x
  · exact fun x => piece_eq 13 (by omega) _ _ x0 x1 x2 x3 x
  · exact fun x => piece_eq 12 (by omega) _ _ x0 x1 x2 x3 x
  · exact fun x => piece_eq 11 (by omega) _ _ x0 x1 x2 x3 x
  · exact fun x => piece_eq 10 (by omega) _ _ x0 x1 x2 x3 x
  · exact fun x => piece_eq 9 (by omega) _ _ x0 x1 x2 x3 x
  · exact fun x => piece_eq 8 (by omega) _ _ x0 x1 x2 x3 x
  · exact fun x => piece_eq 7 (by omega) _ _ x0 x1 x2 x3 x
  · exact fun x => piece_eq 6 (by omega) _ _ x0 x1 x2 x3 x
  · exact fun x => piece_eq 5 (by omega) _ _ x0 x1 x2 x3 x
  · exact fun x => piece_eq 4 (by omega) _ _ x0 x1 x2 x3 x
  · exact fun x => piece_eq 3 (by omega) _ _ x0 x1 x2 x3 x
  · exact fun x => piece_eq 2 (by omega) _ _ x0 x1 x2 x3 x
  · exact fun x => piece_eq 1 (by omega) _ _ x0 x1 x2 x3 x
  · exact fun x => piece_eq 0 (by omega) _ _ x0 x1 x2 x3 x

/-- The windows' index maps at each of the 256 grid points: the adjacency, feature and output windows sit at block `t` of
    their first axis, the bias row and the weight matrix at their one block. -/
private theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- Graph `j` of the adjacency block at point `t` is graph `16 t + j` of the array. -/
private theorem adj_block (c : Dev nD) (t : Fin cfg1.N) (j : Fin 16) (n k : Fin 82) (g : Fin 4096) (hg : g.val = 16 * t.val + j.val) :
    (iblk1 V c 0 t : Vec Ideal S16x82x82 .f32) (ix3 j n k) = (V c main_arg1 : S4096x82x82.Idx → EReal) (ix3 g n k) := by
  obtain ⟨e0, e1, e2, -⟩ := idx_facts t
  unfold iblk1
  rw [View.read_apply]
  show V c main_arg1 _ = V c main_arg1 _
  congr 1
  funext a
  apply Fin.ext
  match a with
  | ⟨0, _⟩ => show win1_0.index t (0 : Fin 3) * 16 + 1 * j.val = g.val; rw [e0, hg]; omega
  | ⟨1, _⟩ => show win1_0.index t (1 : Fin 3) * 82 + 1 * n.val = n.val; rw [e1]; omega
  | ⟨2, _⟩ => show win1_0.index t (2 : Fin 3) * 82 + 1 * k.val = k.val; rw [e2]; omega

/-- Graph `j` of the projected-feature block at point `t` is graph `16 t + j` of the array. -/
private theorem feat_block (c : Dev nD) (t : Fin cfg1.N) (j : Fin 16) (k : Fin 82) (e : Fin 15) (g : Fin 4096) (hg : g.val = 16 * t.val + j.val) :
    (iblk1 V c 1 t : Vec Ideal S16x82x15 .bf16) (ix3 j k e) = (V c main_v7 : S4096x82x15.Idx → EReal) (ix3 g k e) := by
  obtain ⟨-, -, -, e0, e1, e2, -⟩ := idx_facts t
  unfold iblk1
  rw [View.read_apply]
  show V c main_v7 _ = V c main_v7 _
  congr 1
  funext a
  apply Fin.ext
  match a with
  | ⟨0, _⟩ => show win1_1.index t (0 : Fin 3) * 16 + 1 * j.val = g.val; rw [e0, hg]; omega
  | ⟨1, _⟩ => show win1_1.index t (1 : Fin 3) * 82 + 1 * k.val = k.val; rw [e1]; omega
  | ⟨2, _⟩ => show win1_1.index t (2 : Fin 3) * 15 + 1 * e.val = e.val; rw [e2]; omega

/-- The bias row's block is the whole row at every point. -/
private theorem bias_block (c : Dev nD) (t : Fin cfg1.N) (e : Fin 15) :
    (iblk1 V c 2 t : Vec Ideal S1x15 .f32) (ix2 (0 : Fin 1) e) = (V c main_v0 : S1x15.Idx → EReal) (ix2 (0 : Fin 1) e) := by
  obtain ⟨-, -, -, -, -, -, e0, e1, -⟩ := idx_facts t
  unfold iblk1
  rw [View.read_apply]
  show V c main_v0 _ = V c main_v0 _
  congr 1
  funext a
  apply Fin.ext
  match a with
  | ⟨0, _⟩ => show win1_2.index t (0 : Fin 2) * 1 + 1 * 0 = 0; rw [e0]
  | ⟨1, _⟩ => show win1_2.index t (1 : Fin 2) * 15 + 1 * e.val = e.val; rw [e1]; omega

/-- The weight matrix's block is the whole matrix at every point. -/
private theorem weight_block (c : Dev nD) (t : Fin cfg1.N) (e f : Fin 15) :
    (iblk1 V c 3 t : Vec Ideal S15x15 .bf16) (ix2 e f) = (V c main_v4 : S15x15.Idx → EReal) (ix2 e f) := by
  obtain ⟨-, -, -, -, -, -, -, -, e0, e1, -⟩ := idx_facts t
  unfold iblk1
  rw [View.read_apply]
  show V c main_v4 _ = V c main_v4 _
  congr 1
  funext a
  apply Fin.ext
  match a with
  | ⟨0, _⟩ => show win1_3.index t (0 : Fin 2) * 15 + 1 * e.val = e.val; rw [e0]; omega
  | ⟨1, _⟩ => show win1_3.index t (1 : Fin 2) * 15 + 1 * f.val = f.val; rw [e1]; omega

/-- Entry `(j, n, f)` of the output block at point `t` sits at graph `16 t + j` of the output array. -/
private theorem out_emb (t : Fin cfg1.N) (j : Fin 16) (n : Fin 82) (f : Fin 15) (g : Fin 4096) (hg : g.val = 16 * t.val + j.val) :
    ((cfg1.win 4).blk t).view.emb (ix3 j n f) = (ix3 g n f : S4096x82x15.Idx) := by
  obtain ⟨-, -, -, -, -, -, -, -, -, -, e0, e1, e2⟩ := idx_facts t
  funext a
  apply Fin.ext
  match a with
  | ⟨0, _⟩ => show win1_4.index t (0 : Fin 3) * 16 + 1 * j.val = g.val; rw [e0, hg]; omega
  | ⟨1, _⟩ => show win1_4.index t (1 : Fin 3) * 82 + 1 * n.val = n.val; rw [e1]; omega
  | ⟨2, _⟩ => show win1_4.index t (2 : Fin 3) * 15 + 1 * f.val = f.val; rw [e2]; omega

/-- The block's function of the four input blocks at point `t` is `layer1` of the four arrays, read where the output
    block sits. -/
private theorem block_layer1 (c : Dev nD) (t : Fin cfg1.N) (y : S16x82x15.Idx) :
    blockFn (iblk1 V c 0 t) (iblk1 V c 1 t) (iblk1 V c 2 t) (iblk1 V c 3 t) y
      = layer1 (V c main_arg1) (V c main_v7) (V c main_v0) (V c main_v4) (((cfg1.win 4).blk t).view.emb y) := by
  obtain ⟨j, n, f, rfl⟩ : ∃ (j : Fin 16) (n : Fin 82) (f : Fin 15), y = ix3 j n f := ⟨y 0, y 1, y 2, eq_ix3 y⟩
  have ht : t.val < 256 := lt_of_lt_of_eq t.isLt N_1
  have hg : (⟨16 * t.val + j.val, by have := j.isLt; omega⟩ : Fin 4096).val = 16 * t.val + j.val := rfl
  rw [out_emb t j n f _ hg, layer1_apply, blockFn_apply]
  refine Finset.sum_congr rfl fun e _ => ?_
  unfold conv
  refine congrArg₂ (· * ·) (congrArg relu (congrArg₂ (· + ·) (Finset.sum_congr rfl fun k _ => ?_) ?_)) ?_
  · exact congrArg₂ (· * ·) (adj_block V c t j n k _ hg) (feat_block V c t j k e _ hg)
  · exact bias_block V c t e
  · exact weight_block V c t e f

/-- What point `t` writes back is block `t` of `layer1` of the four arrays. -/
private theorem flushed_eq (c : Dev nD) (t : Fin cfg1.N) :
    (dat1 (F := Ideal) V c).flushed 4 t
      = ((cfg1.win 4).blk t).view.read (Elt Ideal) (layer1 (V c main_arg1) (V c main_v7) (V c main_v0) (V c main_v4)) := by
  show (cfg1.win 4).cut (grid1.coords t) ((dat1 (F := Ideal) V c).after 4 t) = _
  rw [after1_4]
  funext y
  exact (congrFun (out1_4_eq (iblk1 V c 0 t) (iblk1 V c 1 t) (iblk1 V c 2 t) (iblk1 V c 3 t)) y).trans (block_layer1 V c t y)

/-- An index of the output array is in point `t`'s block iff each coordinate is in the block's range on its axis. -/
private theorem mem_blk (t : Fin cfg1.N) (i : S4096x82x15.Idx) :
    i ∈ ((cfg1.win 4).blk t).view.set ↔ ∀ a : Fin 3, win1_4.index t a * S16x82x15.size a ≤ (i a).val ∧ (i a).val < win1_4.index t a * S16x82x15.size a + S16x82x15.size a := by
  show i ∈ ((View.whole main_v8).slice (win1_4.rect t)).set ↔ _
  rw [View.set_slice_whole, Rect.mem_set_unit]
  exact Iff.rfl

/-- Every graph lies in the block of the point `g / 16`. -/
private theorem cover (i : S4096x82x15.Idx) :
    ∃ t : Fin cfg1.N, (cfg1.win 4).flush t = true ∧ i ∈ ((cfg1.win 4).blk t).view.set := by
  have hi0 : (i 0).val < 4096 := (i 0).isLt
  have hi1 : (i 1).val < 82 := (i 1).isLt
  have hi2 : (i 2).val < 15 := (i 2).isLt
  have hN : grid1.N = 256 := N_1
  let t : Fin cfg1.N := ⟨(i 0).val / 16, by show (i 0).val / 16 < grid1.N; rw [hN]; omega⟩
  obtain ⟨-, -, -, -, -, -, -, -, -, -, e0, e1, e2⟩ := idx_facts t
  have ht : t.val = (i 0).val / 16 := rfl
  refine ⟨t, flush1_4 t, ?_⟩
  rw [mem_blk]
  intro a
  match a with
  | ⟨0, _⟩ => show win1_4.index t (0 : Fin 3) * 16 ≤ (i 0).val ∧ (i 0).val < win1_4.index t (0 : Fin 3) * 16 + 16; rw [e0, ht]; omega
  | ⟨1, _⟩ => show win1_4.index t (1 : Fin 3) * 82 ≤ (i 1).val ∧ (i 1).val < win1_4.index t (1 : Fin 3) * 82 + 82; rw [e1]; omega
  | ⟨2, _⟩ => show win1_4.index t (2 : Fin 3) * 15 ≤ (i 2).val ∧ (i 2).val < win1_4.index t (2 : Fin 3) * 15 + 15; rw [e2]; omega

/-- After region 1 its output array is `layer1` of the four arrays it reads. -/
theorem final1 (c : Dev nD) :
    (dat1 (F := Ideal) V c).arrAt 4 cfg1.N = layer1 (V c main_arg1) (V c main_v7) (V c main_v0) (V c main_v4) :=
  (dat1 (F := Ideal) V c).arrAt_eq_of_cover 4 (layer1 (V c main_arg1) (V c main_v7) (V c main_v0) (V c main_v4))
    (fun t _ => flushed_eq V c t) cover

end Cert.KernelIdeal.RegionValue

end
-- ==== Proof.Region2.lean ====
/-
  The third kernel region: 256 grid points, each staging 16 graphs' adjacency matrices (16×82×82), the matching 16
  blocks of features (16×82×15) and the bias row (1×15), and writing back `relu (A · t + b)` for those 16 graphs.
-/
import proofs.«106284_g79757542687100_cont_9to1c4b_149_5_alg».proof.Proof.Gen.KernelIdeal.Frame
import proofs.«106284_g79757542687100_cont_9to1c4b_149_5_alg».proof.Proof.Spec
import proofs.«106284_g79757542687100_cont_9to1c4b_149_5_alg».proof.Proof.LibPlainDot
import Idealize.ShloMosaic.Lib.Pipeline.Value

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

/-! ## One graph's slab at a node and a feature -/

/-- The slab the body stores for one graph, from the bias row `b`, the graph's adjacency slab `a` and its feature slab
    `t`, read at node `n` and feature `f`: `relu (Σₖ a[0, n, k] · t[0, k, f] + b[0, f])`. The changes of float format are
    the identity on the extended reals, the leading unit axis is dropped and restored by casts that keep the row-major
    position, the product accumulates into zeros, and the bias row is repeated along the nodes. -/
private theorem layer2_pay_apply (b : Vec Ideal S1x15 .f32) (a : Vec Ideal S1x82x82 .f32) (t : Vec Ideal S1x82x15 .bf16)
    (n : Fin 82) (f : Fin 15) :
    k2_pay4 (F := Ideal) b a t (ix3 (0 : Fin 1) n f)
      = relu ((∑ k : Fin 82, a (ix3 (0 : Fin 1) n k) * t (ix3 (0 : Fin 1) k f)) + b (ix2 (0 : Fin 1) f)) := by
  unfold k2_pay4 k2_pay3
  refine (shapeCast_apply _ shapeCasts_S82x15_S1x82x15 (ix3 (0 : Fin 1) n f) (ix2 n f) ?_).trans ?_
  · rw [Shape.rowMajor_val_two, Shape.rowMajor_val_three]
    show n.val * 15 + f.val = ((0 : Nat) * 82 + n.val) * 15 + f.val
    omega
  unfold relu
  refine congrArg₂ max (congrArg₂ (· + ·) ?_ ?_) Ideal.ofBits_zero_f32
  · refine (PlainDot.matmul_zero_apply 82 82 15 none _ _ n f).trans ?_
    refine Finset.sum_congr rfl fun k _ => congrArg₂ (· * ·) ?_ ?_
    · refine shapeCast_apply a shapeCasts_S1x82x82_S82x82 (ix2 n k) (ix3 (0 : Fin 1) n k) ?_
      rw [Shape.rowMajor_val_two, Shape.rowMajor_val_three]
      show ((0 : Nat) * 82 + n.val) * 82 + k.val = n.val * 82 + k.val
      omega
    · refine shapeCast_apply t shapeCasts_S1x82x15_S82x15 (ix2 k f) (ix3 (0 : Fin 1) k f) ?_
      rw [Shape.rowMajor_val_two, Shape.rowMajor_val_three]
      show ((0 : Nat) * 82 + k.val) * 15 + f.val = k.val * 15 + f.val
      omega
  · refine (broadcastTo_apply _ broadcasts_S1x15_S82x15 (ix2 n f) (ix2 (0 : Fin 1) f) ?_).trans ?_
    · intro d
      match d with
      | ⟨0, _⟩ => rfl
      | ⟨1, _⟩ => rfl
    · exact congrFun (shapeCast_self b shapeCasts_S1x15_S1x15) (ix2 (0 : Fin 1) f)

/-! ## The sixteen slabs as one function of the block's index -/

/-- What one grid point leaves in its output block, as one function of its three input blocks: entry `(g, n, f)` is
    `relu (Σₖ x0[g, n, k] · x1[g, k, f] + x2[0, f])`. -/
private def layer2Block (x0 : Vec Ideal S16x82x82 .f32) (x1 : Vec Ideal S16x82x15 .bf16) (x2 : Vec Ideal S1x15 .f32) :
    Vec Ideal S16x82x15 .f32 := fun y =>
  let g : Fin 16 := y 0
  let n : Fin 82 := y 1
  let f : Fin 15 := y 2
  relu ((∑ k : Fin 82, x0 (ix3 g n k) * x1 (ix3 g k f)) + x2 (ix2 (0 : Fin 1) f))

private theorem layer2Block_apply (x0 : Vec Ideal S16x82x82 .f32) (x1 : Vec Ideal S16x82x15 .bf16)
    (x2 : Vec Ideal S1x15 .f32) (g : Fin 16) (n : Fin 82) (f : Fin 15) :
    layer2Block x0 x1 x2 (ix3 g n f)
      = relu ((∑ k : Fin 82, x0 (ix3 g n k) * x1 (ix3 g k f)) + x2 (ix2 (0 : Fin 1) f)) := rfl

/-- The slab of graph `j` of the block, computed from the bias row and the `j`-th slabs of the two inputs, is the
    block's function read through the `j`-th slab's rectangle: a slab's entry `(0, n, f)` sits at `(j, n, f)` of the block. -/
private theorem layer2_slab_eq (x0 : Vec Ideal S16x82x82 .f32) (x1 : Vec Ideal S16x82x15 .bf16) (x2 : Vec Ideal S1x15 .f32)
    (j : Nat) (hA : ∀ a, (![j, 0, 0] : Fin 3 → Nat) a + S1x82x82.size a ≤ S16x82x82.size a)
    (hT : ∀ a, (![j, 0, 0] : Fin 3 → Nat) a + S1x82x15.size a ≤ S16x82x15.size a) (x : S1x82x15.Idx) :
    k2_pay4 (F := Ideal) (View.ld x2 r2_0) (View.ld x0 (Rect.unit (s := S16x82x82) ![j, 0, 0] S1x82x82.size hA))
        (View.ld x1 (Rect.unit (s := S16x82x15) ![j, 0, 0] S1x82x15.size hT)) x
      = layer2Block x0 x1 x2 ((Rect.unit (s := S16x82x15) ![j, 0, 0] S1x82x15.size hT).emb x) := by
  obtain ⟨z, n, f, rfl⟩ : ∃ (z : Fin 1) (n : Fin 82) (f : Fin 15), x = ix3 z n f := ⟨x 0, x 1, x 2, eq_ix3 x⟩
  obtain rfl : z = 0 := Subsingleton.elim _ _
  have hj : j < 16 := by have := hT 0; simpa using this
  refine (layer2_pay_apply _ _ _ n f).trans ?_
  have hE : (Rect.unit (s := S16x82x15) ![j, 0, 0] S1x82x15.size hT).emb (ix3 (0 : Fin 1) n f)
      = ix3 (⟨j, hj⟩ : Fin 16) n f := by
    funext a; apply Fin.ext
    match a with
    | ⟨0, _⟩ => show j + 1 * 0 = j; omega
    | ⟨1, _⟩ => show 0 + 1 * n.val = n.val; omega
    | ⟨2, _⟩ => show 0 + 1 * f.val = f.val; omega
  rw [hE, layer2Block_apply]
  unfold relu
  refine congrArg₂ max (congrArg₂ (· + ·) (Finset.sum_congr rfl fun k _ => congrArg₂ (· * ·) ?_ ?_) ?_) rfl
  · refine congrArg x0 ?_
    funext a; apply Fin.ext
    match a with
    | ⟨0, _⟩ => show j + 1 * 0 = j; omega
    | ⟨1, _⟩ => show 0 + 1 * n.val = n.val; omega
    | ⟨2, _⟩ => show 0 + 1 * k.val = k.val; omega
  · refine congrArg x1 ?_
    funext a; apply Fin.ext
    match a with
    | ⟨0, _⟩ => show j + 1 * 0 = j; omega
    | ⟨1, _⟩ => show 0 + 1 * k.val = k.val; omega
    | ⟨2, _⟩ => show 0 + 1 * f.val = f.val; omega
  · refine congrArg x2 ?_
    funext a; apply Fin.ext
    match a with
    | ⟨0, _⟩ => show 0 + 1 * 0 = 0; omega
    | ⟨1, _⟩ => show 0 + 1 * f.val = f.val; omega

/-- What the body leaves in the output block is the block's function. Its sixteen stores write the sixteen slabs, which
    tile the block; each stored value is the same arithmetic of the bias row and the two slabs of its graph, however the
    body's text groups its steps, so each is the block's function through its slab's rectangle. -/
private theorem layer2_out_eq (x0 : Vec Ideal S16x82x82 .f32) (x1 : Vec Ideal S16x82x15 .bf16) (x2 : Vec Ideal S1x15 .f32) :
    out2_3 (F := Ideal) x0 x1 x2 = layer2Block x0 x1 x2 := by
  funext y
  unfold out2_3
  refine View.canon_apply_of_pieces (layer2Block x0 x1 x2) _ ?_ y (cover2_3 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact layer2_slab_eq x0 x1 x2 15 _ _ x
  · exact layer2_slab_eq x0 x1 x2 14 _ _ x
  · exact layer2_slab_eq x0 x1 x2 13 _ _ x
  · exact layer2_slab_eq x0 x1 x2 12 _ _ x
  · exact layer2_slab_eq x0 x1 x2 11 _ _ x
  · exact layer2_slab_eq x0 x1 x2 10 _ _ x
  · exact layer2_slab_eq x0 x1 x2 9 _ _ x
  · exact layer2_slab_eq x0 x1 x2 8 _ _ x
  · exact layer2_slab_eq x0 x1 x2 7 _ _ x
  · exact layer2_slab_eq x0 x1 x2 6 _ _ x
  · exact layer2_slab_eq x0 x1 x2 5 _ _ x
  · exact layer2_slab_eq x0 x1 x2 4 _ _ x
  · exact layer2_slab_eq x0 x1 x2 3 _ _ x
  · exact layer2_slab_eq x0 x1 x2 2 _ _ x
  · exact layer2_slab_eq x0 x1 x2 1 _ _ x
  · exact layer2_slab_eq x0 x1 x2 0 _ _ x

/-! ## From a point's block to the array -/

/-- A block whose three inputs are graphs `16 p … 16 p + 15` of the adjacency and feature arrays and the bias row holds
    those graphs' entries of `layer2`. -/
private theorem layer2_point_eq (A : Arr3 4096 82 82) (T : Arr3 4096 82 15) (B : Arr2 1 15)
    (x0 : Vec Ideal S16x82x82 .f32) (x1 : Vec Ideal S16x82x15 .bf16) (x2 : Vec Ideal S1x15 .f32) (p : Nat) (hp : p < 256)
    (h0 : ∀ (g : Fin 16) (n k : Fin 82), x0 (ix3 g n k) = A (ix3 (⟨16 * p + g.val, by omega⟩ : Fin 4096) n k))
    (h1 : ∀ (g : Fin 16) (k : Fin 82) (f : Fin 15), x1 (ix3 g k f) = T (ix3 (⟨16 * p + g.val, by omega⟩ : Fin 4096) k f))
    (h2 : ∀ f : Fin 15, x2 (ix2 (0 : Fin 1) f) = B (ix2 (0 : Fin 1) f))
    (g : Fin 16) (n : Fin 82) (f : Fin 15) :
    layer2Block x0 x1 x2 (ix3 g n f) = layer2 A T B (ix3 (⟨16 * p + g.val, by omega⟩ : Fin 4096) n f) := by
  rw [layer2Block_apply, layer2_apply]
  unfold conv
  rw [h2]
  refine congrArg relu (congrArg (· + B (ix2 (0 : Fin 1) f)) (Finset.sum_congr rfl fun k _ => ?_))
  rw [h0, h1]

/-- The windows' index maps over the grid: the three graph-indexed windows sit at block `t` of their first axis and at
    block `0` of the other two, and the bias row's window at block `(0, 0)`. -/
private theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0 :=
  (by decide +kernel : ∀ t : Fin grid2.N, _)

/-- What point `t` writes back is block `t` of `layer2` of the three arrays: entry `(g, n, f)` of a block of point `t`
    sits at `(16 t + g, n, f)` of its array (block index times block size plus the coordinate inside the block), and the
    bias row's one block is the row. -/
private theorem flushed2_eq (c : Dev nD) (t : Fin cfg2.N) :
    (dat2 (F := Ideal) V c).flushed 3 t
      = ((cfg2.win 3).blk t).view.read (Elt Ideal) (layer2 (V c main_arg1) (V c main_v8) (V c main_v1)) := by
  show (cfg2.win 3).cut (grid2.coords t) ((dat2 V c).after 3 t) = _
  rw [after2_3, layer2_out_eq]
  funext y
  show layer2Block (iblk2 V c 0 t) (iblk2 V c 1 t) (iblk2 V c 2 t) y
      = layer2 (V c main_arg1) (V c main_v8) (V c main_v1) (((cfg2.win 3).blk t).view.emb y)
  obtain ⟨g, n, f, rfl⟩ : ∃ (g : Fin 16) (n : Fin 82) (f : Fin 15), y = ix3 g n f := ⟨y 0, y 1, y 2, eq_ix3 y⟩
  have ht : t.val < 256 := lt_of_lt_of_eq t.isLt N_2
  obtain ⟨a00, a01, a02, a10, a11, a12, a20, a21, a30, a31, a32⟩ := idx_facts2 t
  refine (layer2_point_eq (V c main_arg1) (V c main_v8) (V c main_v1) (iblk2 V c 0 t) (iblk2 V c 1 t) (iblk2 V c 2 t)
    t.val ht ?_ ?_ ?_ g n f).trans ?_
  · intro g n k
    show V c main_arg1 (((cfg2.win 0).blk t).view.emb (ix3 g n k)) = _
    refine congrArg (V c main_arg1) ?_
    funext a; apply Fin.ext
    match a with
    | ⟨0, _⟩ => show win2_0.index t (0 : Fin 3) * 16 + 1 * g.val = 16 * t.val + g.val; omega
    | ⟨1, _⟩ => show win2_0.index t (1 : Fin 3) * 82 + 1 * n.val = n.val; omega
    | ⟨2, _⟩ => show win2_0.index t (2 : Fin 3) * 82 + 1 * k.val = k.val; omega
  · intro g k f
    show V c main_v8 (((cfg2.win 1).blk t).view.emb (ix3 g k f)) = _
    refine congrArg (V c main_v8) ?_
    funext a; apply Fin.ext
    match a with
    | ⟨0, _⟩ => show win2_1.index t (0 : Fin 3) * 16 + 1 * g.val = 16 * t.val + g.val; omega
    | ⟨1, _⟩ => show win2_1.index t (1 : Fin 3) * 82 + 1 * k.val = k.val; omega
    | ⟨2, _⟩ => show win2_1.index t (2 : Fin 3) * 15 + 1 * f.val = f.val; omega
  · intro f
    show V c main_v1 (((cfg2.win 2).blk t).view.emb (ix2 (0 : Fin 1) f)) = _
    refine congrArg (V c main_v1) ?_
    funext a; apply Fin.ext
    match a with
    | ⟨0, _⟩ => show win2_2.index t (0 : Fin 2) * 1 + 1 * 0 = 0; omega
    | ⟨1, _⟩ => show win2_2.index t (1 : Fin 2) * 15 + 1 * f.val = f.val; omega
  · refine congrArg (layer2 (V c main_arg1) (V c main_v8) (V c main_v1)) ?_
    funext a; apply Fin.ext
    match a with
    | ⟨0, _⟩ => show 16 * t.val + g.val = win2_3.index t (0 : Fin 3) * 16 + 1 * g.val; omega
    | ⟨1, _⟩ => show n.val = win2_3.index t (1 : Fin 3) * 82 + 1 * n.val; omega
    | ⟨2, _⟩ => show f.val = win2_3.index t (2 : Fin 3) * 15 + 1 * f.val; omega

/-- An index of the output array lies in point `t`'s block iff each coordinate lies in the block's range on its axis. -/
private theorem mem_blk2 (t : Fin cfg2.N) (i : S4096x82x15.Idx) :
    i ∈ ((cfg2.win 3).blk t).view.set
      ↔ ∀ a : Fin 3, win2_3.index t a * S16x82x15.size a ≤ (i a).val
          ∧ (i a).val < win2_3.index t a * S16x82x15.size a + S16x82x15.size a := by
  show i ∈ ((View.whole main_v9).slice (win2_3.rect t)).set ↔ _
  rw [View.set_slice_whole, Rect.mem_set_unit]
  exact Iff.rfl

/-- Every index of the output array lies in the block of the point that owns its graph: graph `g` belongs to point
    `g / 16`, and every point writes its block back. -/
private theorem cover2 (i : S4096x82x15.Idx) :
    ∃ t : Fin cfg2.N, (cfg2.win 3).flush t = true ∧ i ∈ ((cfg2.win 3).blk t).view.set := by
  have hi0 : (i 0).val < 4096 := (i 0).isLt
  have hi1 : (i 1).val < 82 := (i 1).isLt
  have hi2 : (i 2).val < 15 := (i 2).isLt
  have hN : cfg2.N = 256 := N_2
  obtain ⟨t, ht⟩ : ∃ t : Fin cfg2.N, t.val = (i 0).val / 16 := ⟨⟨(i 0).val / 16, by rw [hN]; omega⟩, rfl⟩
  obtain ⟨-, -, -, -, -, -, -, -, a30, a31, a32⟩ := idx_facts2 t
  refine ⟨t, flush2_3 t, ?_⟩
  rw [mem_blk2]
  intro a
  match a with
  | ⟨0, _⟩ =>
    show win2_3.index t (0 : Fin 3) * 16 ≤ (i 0).val ∧ (i 0).val < win2_3.index t (0 : Fin 3) * 16 + 16
    omega
  | ⟨1, _⟩ =>
    show win2_3.index t (1 : Fin 3) * 82 ≤ (i 1).val ∧ (i 1).val < win2_3.index t (1 : Fin 3) * 82 + 82
    omega
  | ⟨2, _⟩ =>
    show win2_3.index t (2 : Fin 3) * 15 ≤ (i 2).val ∧ (i 2).val < win2_3.index t (2 : Fin 3) * 15 + 15
    omega

/-- After region 2 its output array is `layer2` of the three arrays it reads. -/
theorem final2 (c : Dev nD) :
    (dat2 (F := Ideal) V c).arrAt 3 cfg2.N = layer2 (V c main_arg1) (V c main_v8) (V c main_v1) :=
  (dat2 (F := Ideal) V c).arrAt_eq_of_cover 3 (layer2 (V c main_arg1) (V c main_v8) (V c main_v1))
    (fun t _ => flushed2_eq V c t) (fun i => cover2 i)

end Cert.KernelIdeal.RegionValue

end
-- ==== Proof.Region3.lean ====
/-
  The fourth kernel region: 8 grid points, each staging 512 rows of flattened features (512×1230), both weight
  matrices and both bias rows whole, and writing back the dense head's 512×29 rows.
-/
import proofs.«106284_g79757542687100_cont_9to1c4b_149_5_alg».proof.Proof.Gen.KernelIdeal.Frame
import proofs.«106284_g79757542687100_cont_9to1c4b_149_5_alg».proof.Proof.Spec
import proofs.«106284_g79757542687100_cont_9to1c4b_149_5_alg».proof.Proof.LibPlainDot
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

/-- The all-zero offset of a rank-2 rectangle, however it is spelt. -/
theorem zero_off3 : (![0, 0] : Fin 2 → Nat) = fun _ => 0 := funext fun a => by fin_cases a <;> rfl

/-- One block of the dense head at a row `p` of the block and a column `q`: the rectified hidden layer of row `p`
    against column `q` of the output weights, plus the output bias. -/
theorem block_head_apply (x0 : Vec Ideal S512x1230 .f32) (x1 : Vec Ideal S1230x300 .bf16) (x2 : Vec Ideal S1x300 .f32)
    (x3 : Vec Ideal S300x29 .bf16) (x4 : Vec Ideal S1x29 .f32) (p : Fin 512) (q : Fin 29) :
    out3_5 (F := Ideal) x0 x1 x2 x3 x4 (ix2 p q)
      = (∑ h : Fin 300, relu ((∑ j : Fin 1230, x0 (ix2 p j) * x1 (ix2 j h)) + x2 (ix2 (0 : Fin 1) h)) * x3 (ix2 h q))
          + x4 (ix2 (0 : Fin 1) q) := by
  unfold out3_5
  rw [View.canon_unit_zero zero_off3]
  simp only [View.ld_unit_zero (S := S512x1230) zero_off3, View.ld_unit_zero (S := S1230x300) zero_off3,
    View.ld_unit_zero (S := S1x300) zero_off3, View.ld_unit_zero (S := S300x29) zero_off3,
    View.ld_unit_zero (S := S1x29) zero_off3]
  unfold k3_pay1
  simp only [shapeCast_self]
  refine (addf_apply _ _ (ix2 p q)).trans ?_
  refine congrArg₂ (· + ·) ?_ (broadcastTo_1b_ab_apply x4 broadcasts_S1x29_S512x29 p q)
  refine (PlainDot.matmul_zero_apply (φ₁ := .bf16) (φ₂ := .bf16) 512 300 29 none _ x3 p q).trans ?_
  refine Finset.sum_congr rfl fun h _ => ?_
  refine congrArg (· * x3 (ix2 h q)) ?_
  refine (truncf_apply _ bitsLt_bf16_f32 (ix2 p h)).trans ?_
  refine (maximumf_apply _ _ (ix2 p h)).trans ?_
  refine congrArg₂ max ?_ Ideal.ofBits_zero_f32
  refine (addf_apply _ _ (ix2 p h)).trans ?_
  refine congrArg₂ (· + ·) ?_ (broadcastTo_1b_ab_apply x2 broadcasts_S1x300_S512x300 p h)
  exact PlainDot.matmul_zero_apply (φ₁ := .bf16) (φ₂ := .bf16) 512 1230 300 none _ x1 p h

/-- The printed index maps over the eight points: the feature block and the output block at point `t` are the
    `t`-th block of 512 rows; the weights and the bias rows are staged whole. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the feature block at point `t` is row `512 t + p` of the flattened features. -/
theorem feat_blk_apply (c : Dev nD) (t : Fin cfg3.N) (p : Fin 512) (j : Fin 1230) (g : Fin 4096)
    (hg : g.val = 512 * t.val + p.val) :
    (iblk3 V c 0 t : Vec Ideal S512x1230 .f32) (ix2 p j) = (V c main_v10 : Arr2 4096 1230) (ix2 g j) := by
  unfold iblk3
  rw [View.read_apply]
  show (V c main_v10 : Arr2 4096 1230) _ = _
  refine congrArg (V c main_v10 : Arr2 4096 1230) (funext fun a => Fin.ext ?_)
  obtain ⟨e0, e1, -⟩ := index_facts3 t
  match a with
  | ⟨0, _⟩ => show win3_0.index t (0 : Fin 2) * 512 + 1 * p.val = g.val; rw [e0, hg]; omega
  | ⟨1, _⟩ => show win3_0.index t (1 : Fin 2) * 1230 + 1 * j.val = j.val; rw [e1]; omega

/-- The first weight matrix is staged whole at every point. -/
theorem fw_blk_apply (c : Dev nD) (t : Fin cfg3.N) (j : Fin 1230) (h : Fin 300) :
    (iblk3 V c 1 t : Vec Ideal S1230x300 .bf16) (ix2 j h) = (V c main_v5 : Arr2 1230 300) (ix2 j h) := by
  unfold iblk3
  rw [View.read_apply]
  show (V c main_v5 : Arr2 1230 300) _ = _
  refine congrArg (V c main_v5 : Arr2 1230 300) (funext fun a => Fin.ext ?_)
  obtain ⟨-, -, e0, e1, -⟩ := index_facts3 t
  match a with
  | ⟨0, _⟩ => show win3_1.index t (0 : Fin 2) * 1230 + 1 * j.val = j.val; rw [e0]; omega
  | ⟨1, _⟩ => show win3_1.index t (1 : Fin 2) * 300 + 1 * h.val = h.val; rw [e1]; omega

/-- So is the first bias row. -/
theorem fb_blk_apply (c : Dev nD) (t : Fin cfg3.N) (z : Fin 1) (h : Fin 300) :
    (iblk3 V c 2 t : Vec Ideal S1x300 .f32) (ix2 z h) = (V c main_v2 : Arr2 1 300) (ix2 z h) := by
  unfold iblk3
  rw [View.read_apply]
  show (V c main_v2 : Arr2 1 300) _ = _
  refine congrArg (V c main_v2 : Arr2 1 300) (funext fun a => Fin.ext ?_)
  obtain ⟨-, -, -, -, e0, e1, -⟩ := index_facts3 t
  match a with
  | ⟨0, _⟩ => show win3_2.index t (0 : Fin 2) * 1 + 1 * z.val = z.val; rw [e0]; omega
  | ⟨1, _⟩ => show win3_2.index t (1 : Fin 2) * 300 + 1 * h.val = h.val; rw [e1]; omega

/-- So is the output weight matrix. -/
theorem ow_blk_apply (c : Dev nD) (t : Fin cfg3.N) (h : Fin 300) (q : Fin 29) :
    (iblk3 V c 3 t : Vec Ideal S300x29 .bf16) (ix2 h q) = (V c main_v6 : Arr2 300 29) (ix2 h q) := by
  unfold iblk3
  rw [View.read_apply]
  show (V c main_v6 : Arr2 300 29) _ = _
  refine congrArg (V c main_v6 : Arr2 300 29) (funext fun a => Fin.ext ?_)
  obtain ⟨-, -, -, -, -, -, e0, e1, -⟩ := index_facts3 t
  match a with
  | ⟨0, _⟩ => show win3_3.index t (0 : Fin 2) * 300 + 1 * h.val = h.val; rw [e0]; omega
  | ⟨1, _⟩ => show win3_3.index t (1 : Fin 2) * 29 + 1 * q.val = q.val; rw [e1]; omega

/-- So is the output bias row. -/
theorem ob_blk_apply (c : Dev nD) (t : Fin cfg3.N) (z : Fin 1) (q : Fin 29) :
    (iblk3 V c 4 t : Vec Ideal S1x29 .f32) (ix2 z q) = (V c main_v3 : Arr2 1 29) (ix2 z q) := by
  unfold iblk3
  rw [View.read_apply]
  show (V c main_v3 : Arr2 1 29) _ = _
  refine congrArg (V c main_v3 : Arr2 1 29) (funext fun a => Fin.ext ?_)
  obtain ⟨-, -, -, -, -, -, -, -, e0, e1, -⟩ := index_facts3 t
  match a with
  | ⟨0, _⟩ => show win3_4.index t (0 : Fin 2) * 1 + 1 * z.val = z.val; rw [e0]; omega
  | ⟨1, _⟩ => show win3_4.index t (1 : Fin 2) * 29 + 1 * q.val = q.val; rw [e1]; omega

/-- What point `t` writes back is rows `512 t … 512 t + 511` of the dense head of the five arrays. -/
theorem flushed_eq3 (c : Dev nD) (t : Fin cfg3.N) :
    (dat3 (F := Ideal) V c).flushed 5 t
      = ((cfg3.win 5).blk t).view.read (Elt Ideal)
          (head (V c main_v10) (V c main_v5) (V c main_v2) (V c main_v6) (V c main_v3)) := by
  show (cfg3.win 5).cut (grid3.coords t) ((dat3 V c).after 5 t) = _
  rw [after3_5]
  refine funext fun (y : S512x29.Idx) => ?_
  obtain ⟨p, q, rfl⟩ : ∃ (p : Fin 512) (q : Fin 29), y = ix2 p q := ⟨y 0, y 1, eq_ix2 y⟩
  have ht : t.val < 8 := lt_of_lt_of_eq t.isLt N_3
  refine (block_head_apply (iblk3 V c 0 t) (iblk3 V c 1 t) (iblk3 V c 2 t) (iblk3 V c 3 t) (iblk3 V c 4 t) p q).trans ?_
  rw [View.read_apply]
  show _ = head (V c main_v10) (V c main_v5) (V c main_v2) (V c main_v6) (V c main_v3) (((cfg3.win 5).blk t).view.emb (ix2 p q))
  have hemb : ((cfg3.win 5).blk t).view.emb (ix2 p q)
      = (ix2 (⟨512 * t.val + p.val, by omega⟩ : Fin 4096) q : (⟨2, ![4096, 29]⟩ : Shape).Idx) := by
    funext a; apply Fin.ext
    obtain ⟨-, -, -, -, -, -, -, -, -, -, e0, e1⟩ := index_facts3 t
    match a with
    | ⟨0, _⟩ => show win3_5.index t (0 : Fin 2) * 512 + 1 * p.val = 512 * t.val + p.val; rw [e0]; omega
    | ⟨1, _⟩ => show win3_5.index t (1 : Fin 2) * 29 + 1 * q.val = q.val; rw [e1]; omega
  refine Eq.trans ?_ (congrArg (head (V c main_v10) (V c main_v5) (V c main_v2) (V c main_v6) (V c main_v3)) hemb.symm)
  refine Eq.trans ?_ (head_apply (V c main_v10) (V c main_v5) (V c main_v2) (V c main_v6) (V c main_v3) ⟨512 * t.val + p.val, by omega⟩ q).symm
  refine congrArg₂ (· + ·) (Finset.sum_congr rfl fun h _ => ?_) (ob_blk_apply V c t 0 q)
  refine congrArg₂ (· * ·) (congrArg relu (congrArg₂ (· + ·) (Finset.sum_congr rfl fun j _ => ?_) (fb_blk_apply V c t 0 h))) (ow_blk_apply V c t h q)
  exact congrArg₂ (· * ·) (feat_blk_apply V c t p j ⟨512 * t.val + p.val, by omega⟩ rfl) (fw_blk_apply V c t j h)

/-- An index of the output array lies in point `t`'s block iff each coordinate lies in the block's range on its axis. -/
theorem mem_blk3 (t : Fin cfg3.N) (i : S4096x29.Idx) :
    i ∈ ((cfg3.win 5).blk t).view.set
      ↔ ∀ a : Fin 2, win3_5.index t a * S512x29.size a ≤ (i a).val
          ∧ (i a).val < win3_5.index t a * S512x29.size a + S512x29.size a := by
  show i ∈ ((View.whole main_v11).slice (win3_5.rect t)).set ↔ _
  rw [View.set_slice_whole, Rect.mem_set_unit]
  exact Iff.rfl

/-- Every index of the output array lies in the block of the point its row falls in: row `r` in that of point `r / 512`. -/
theorem covered3 (i : S4096x29.Idx) :
    ∃ t : Fin cfg3.N, (cfg3.win 5).flush t = true ∧ i ∈ ((cfg3.win 5).blk t).view.set := by
  have hi0 : (i 0).val < 4096 := (i 0).isLt
  have hi1 : (i 1).val < 29 := (i 1).isLt
  have ht : (i 0).val / 512 < 8 := by omega
  refine ⟨⟨(i 0).val / 512, lt_of_lt_of_eq ht N_3.symm⟩, flush3_5 _, ?_⟩
  rw [mem_blk3]
  obtain ⟨-, -, -, -, -, -, -, -, -, -, e0, e1⟩ := index_facts3 ⟨(i 0).val / 512, lt_of_lt_of_eq ht N_3.symm⟩
  intro a
  match a with
  | ⟨0, _⟩ =>
    show win3_5.index ⟨(i 0).val / 512, _⟩ (0 : Fin 2) * 512 ≤ (i 0).val
      ∧ (i 0).val < win3_5.index ⟨(i 0).val / 512, _⟩ (0 : Fin 2) * 512 + 512
    rw [e0]
    show (i 0).val / 512 * 512 ≤ (i 0).val ∧ (i 0).val < (i 0).val / 512 * 512 + 512
    omega
  | ⟨1, _⟩ =>
    show win3_5.index ⟨(i 0).val / 512, _⟩ (1 : Fin 2) * 29 ≤ (i 1).val
      ∧ (i 1).val < win3_5.index ⟨(i 0).val / 512, _⟩ (1 : Fin 2) * 29 + 29
    rw [e1]
    omega

/-- After region 3 its output array is `head` of the five arrays it reads. -/
theorem final3 (c : Dev nD) :
    (dat3 (F := Ideal) V c).arrAt 5 cfg3.N
      = head (V c main_v10) (V c main_v5) (V c main_v2) (V c main_v6) (V c main_v3) := by
  exact (dat3 V c).arrAt_eq_of_cover 5 _ (fun t _ => flushed_eq3 V c t) covered3

end Cert.KernelIdeal.RegionValue

end
-- ==== Proof.RefValue.lean ====
/-
  The reference program's result, read one operation at a time on the extended reals, is the network `Cert.Gcn.net`
  of its arguments: each `dot_general` is the matching stage's finite sum, each bias is broadcast from its single row,
  each `maximum` against the zero constant is the rectifier, and the reshape lays node `j / 15`'s feature `j % 15` at
  column `j`.
-/
import proofs.«106284_g79757542687100_cont_9to1c4b_149_5_alg».proof.Proof.Gen.ReferenceIdeal.Read
import proofs.«106284_g79757542687100_cont_9to1c4b_149_5_alg».proof.Proof.Spec

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Read Cert.Gcn

variable (x : Arr3 4096 82 10) (adj : Arr3 4096 82 82) (w1 : Arr2 10 15) (b1 : Arr1 15) (w2 : Arr2 15 15)
  (b2 : Arr1 15) (fw : Arr2 1230 300) (fb : Arr1 300) (ow : Arr2 300 29) (ob : Arr1 29)

/-! ## Where each contraction reads its operands -/

/-- `x · W₁` at `[g, n, e]` reads `x[g, n, s]`. -/
private theorem lidx0 (g : Fin 4096) (n : Fin 82) (e : Fin 15) (s : Fin 10) :
    lidx_main_v0 (ix3 g n e) s = ix3 g n s :=
  funext fun a => Fin.ext (by match a with | ⟨0, _⟩ => rfl | ⟨1, _⟩ => rfl | ⟨2, _⟩ => rfl)

/-- `x · W₁` at `[g, n, e]` reads `W₁[s, e]`. -/
private theorem ridx0 (g : Fin 4096) (n : Fin 82) (e : Fin 15) (s : Fin 10) :
    ridx_main_v0 (ix3 g n e) s = ix2 s e :=
  funext fun a => Fin.ext (by match a with | ⟨0, _⟩ => rfl | ⟨1, _⟩ => rfl)

/-- The first aggregation at `[g, n, e]` reads `A[g, n, k]`. -/
private theorem lidx1 (g : Fin 4096) (n : Fin 82) (e : Fin 15) (k : Fin 82) :
    lidx_main_v1 (ix3 g n e) k = ix3 g n k :=
  funext fun a => Fin.ext (by match a with | ⟨0, _⟩ => rfl | ⟨1, _⟩ => rfl | ⟨2, _⟩ => rfl)

/-- The first aggregation at `[g, n, e]` reads the projected features at `[g, k, e]`. -/
private theorem ridx1 (g : Fin 4096) (n : Fin 82) (e : Fin 15) (k : Fin 82) :
    ridx_main_v1 (ix3 g n e) k = ix3 g k e :=
  funext fun a => Fin.ext (by match a with | ⟨0, _⟩ => rfl | ⟨1, _⟩ => rfl | ⟨2, _⟩ => rfl)

/-- The product with `W₂` at `[g, n, f]` reads the rectified features at `[g, n, e]`. -/
private theorem lidx6 (g : Fin 4096) (n : Fin 82) (f : Fin 15) (e : Fin 15) :
    lidx_main_v6 (ix3 g n f) e = ix3 g n e :=
  funext fun a => Fin.ext (by match a with | ⟨0, _⟩ => rfl | ⟨1, _⟩ => rfl | ⟨2, _⟩ => rfl)

/-- The product with `W₂` at `[g, n, f]` reads `W₂[e, f]`. -/
private theorem ridx6 (g : Fin 4096) (n : Fin 82) (f : Fin 15) (e : Fin 15) :
    ridx_main_v6 (ix3 g n f) e = ix2 e f :=
  funext fun a => Fin.ext (by match a with | ⟨0, _⟩ => rfl | ⟨1, _⟩ => rfl)

/-- The second aggregation at `[g, n, f]` reads `A[g, n, k]`. -/
private theorem lidx7 (g : Fin 4096) (n : Fin 82) (f : Fin 15) (k : Fin 82) :
    lidx_main_v7 (ix3 g n f) k = ix3 g n k :=
  funext fun a => Fin.ext (by match a with | ⟨0, _⟩ => rfl | ⟨1, _⟩ => rfl | ⟨2, _⟩ => rfl)

/-- The second aggregation at `[g, n, f]` reads the first layer's output at `[g, k, f]`. -/
private theorem ridx7 (g : Fin 4096) (n : Fin 82) (f : Fin 15) (k : Fin 82) :
    ridx_main_v7 (ix3 g n f) k = ix3 g k f :=
  funext fun a => Fin.ext (by match a with | ⟨0, _⟩ => rfl | ⟨1, _⟩ => rfl | ⟨2, _⟩ => rfl)

/-- The hidden layer at `[g, h]` reads the flattened features at `[g, j]`. -/
private theorem lidx13 (g : Fin 4096) (h : Fin 300) (j : Fin 1230) :
    lidx_main_v13 (ix2 g h) j = ix2 g j :=
  funext fun a => Fin.ext (by match a with | ⟨0, _⟩ => rfl | ⟨1, _⟩ => rfl)

/-- The hidden layer at `[g, h]` reads `F[j, h]`. -/
private theorem ridx13 (g : Fin 4096) (h : Fin 300) (j : Fin 1230) :
    ridx_main_v13 (ix2 g h) j = ix2 j h :=
  funext fun a => Fin.ext (by match a with | ⟨0, _⟩ => rfl | ⟨1, _⟩ => rfl)

/-- The output layer at `[g, c]` reads the hidden features at `[g, h]`. -/
private theorem lidx18 (g : Fin 4096) (c : Fin 29) (h : Fin 300) :
    lidx_main_v18 (ix2 g c) h = ix2 g h :=
  funext fun a => Fin.ext (by match a with | ⟨0, _⟩ => rfl | ⟨1, _⟩ => rfl)

/-- The output layer at `[g, c]` reads `O[h, c]`. -/
private theorem ridx18 (g : Fin 4096) (c : Fin 29) (h : Fin 300) :
    ridx_main_v18 (ix2 g c) h = ix2 h c :=
  funext fun a => Fin.ext (by match a with | ⟨0, _⟩ => rfl | ⟨1, _⟩ => rfl)

/-- Column `j` of row `g` of the reshaped array is feature `j % 15` of node `j / 15` of graph `g`:
    the row-major position `g · 1230 + j` splits as `(g · 82 + j / 15) · 15 + j % 15`. -/
private theorem idx12 (g : Fin 4096) (j : Fin 1230) :
    idx_main_v12 (ix2 g j)
      = ix3 g (⟨j.val / 15, by have := j.isLt; omega⟩ : Fin 82) (⟨j.val % 15, Nat.mod_lt _ (by norm_num)⟩ : Fin 15) := by
  have hg : g.val < 4096 := g.isLt
  have hj : j.val < 1230 := j.isLt
  refine funext fun a => Fin.ext ?_
  match a with
  | ⟨0, _⟩ => show (g.val * 1230 + j.val) / 1230 = g.val; omega
  | ⟨1, _⟩ => show (g.val * 1230 + j.val) / 15 % 82 = j.val / 15; omega
  | ⟨2, _⟩ => show (g.val * 1230 + j.val) % 15 = j.val % 15; omega

/-! ## The constants and the broadcast biases -/

/-- The first rectifier's constant is zero everywhere. -/
private theorem zero0 (i : S4096x82x15.Idx) : val_main_call0_v0 (F := Ideal) i = (0 : EReal) := by
  rw [val_main_call0_v0_apply, val_main_call0_cst_apply, Ideal.ofBits_def, Ideal.ofBits_zero_f32]

/-- The second rectifier's constant is zero everywhere. -/
private theorem zero1 (i : S4096x82x15.Idx) : val_main_call1_v0 (F := Ideal) i = (0 : EReal) := by
  rw [val_main_call1_v0_apply, val_main_call1_cst_apply, Ideal.ofBits_def, Ideal.ofBits_zero_f32]

/-- The head's rectifier's constant is zero everywhere. -/
private theorem zero2 (i : S4096x300.Idx) : val_main_call2_v0 (F := Ideal) i = (0 : EReal) := by
  rw [val_main_call2_v0_apply, val_main_call2_cst_apply, Ideal.ofBits_def, Ideal.ofBits_zero_f32]

/-- The first bias, broadcast over graphs and nodes, is the single row's entry. -/
private theorem bias3 (g : Fin 4096) (n : Fin 82) (e : Fin 15) :
    val_main_v3 (F := Ideal) b1 (ix3 g n e) = rowOf b1 (ix2 (0 : Fin 1) e) := by
  rw [val_main_v3_apply, val_main_v2_apply, rowOf_apply]
  exact congrArg b1 (funext fun a => Fin.ext (by match a with | ⟨0, _⟩ => rfl))

/-- The second bias, broadcast over graphs and nodes, is the single row's entry. -/
private theorem bias9 (g : Fin 4096) (n : Fin 82) (f : Fin 15) :
    val_main_v9 (F := Ideal) b2 (ix3 g n f) = rowOf b2 (ix2 (0 : Fin 1) f) := by
  rw [val_main_v9_apply, val_main_v8_apply, rowOf_apply]
  exact congrArg b2 (funext fun a => Fin.ext (by match a with | ⟨0, _⟩ => rfl))

/-- The hidden layer's bias, broadcast over graphs, is the single row's entry. -/
private theorem bias15 (g : Fin 4096) (h : Fin 300) :
    val_main_v15 (F := Ideal) fb (ix2 g h) = rowOf fb (ix2 (0 : Fin 1) h) := by
  rw [val_main_v15_apply, val_main_v14_apply, rowOf_apply]
  exact congrArg fb (funext fun a => Fin.ext (by match a with | ⟨0, _⟩ => rfl))

/-- The output layer's bias, broadcast over graphs, is the single row's entry. -/
private theorem bias20 (g : Fin 4096) (c : Fin 29) :
    val_main_v20 (F := Ideal) ob (ix2 g c) = rowOf ob (ix2 (0 : Fin 1) c) := by
  rw [val_main_v20_apply, val_main_v19_apply, rowOf_apply]
  exact congrArg ob (funext fun a => Fin.ext (by match a with | ⟨0, _⟩ => rfl))

/-! ## The first convolution -/

/-- The first `dot_general` is `proj`. -/
private theorem stage0 : val_main_v0 (F := Ideal) x w1 = proj x w1 := by
  funext i
  obtain ⟨g, n, e, rfl⟩ : ∃ (g : Fin 4096) (n : Fin 82) (e : Fin 15), i = ix3 g n e := ⟨i 0, i 1, i 2, eq_ix3 i⟩
  rw [val_main_v0_apply, proj_apply]
  refine Finset.sum_congr rfl fun s _ => ?_
  rw [lidx0, ridx0]

/-- The batched `dot_general` with the adjacency is the aggregation of the projected features. -/
private theorem stage1 (g : Fin 4096) (n : Fin 82) (e : Fin 15) :
    val_main_v1 (F := Ideal) x adj w1 (ix3 g n e) = ∑ k : Fin 82, adj (ix3 g n k) * proj x w1 (ix3 g k e) := by
  rw [val_main_v1_apply, stage0]
  refine Finset.sum_congr rfl fun k _ => ?_
  rw [lidx1, ridx1]

/-- Adding the bias and rectifying gives the first convolution's features. -/
private theorem stage5 (g : Fin 4096) (n : Fin 82) (e : Fin 15) :
    val_main_v5 (F := Ideal) x adj w1 b1 (ix3 g n e) = conv adj (proj x w1) (rowOf b1) g n e := by
  rw [val_main_v5_apply, val_main_v4_apply, stage1, bias3, zero0, Ideal.maximumf_def, Ideal.addf_def]
  rfl

/-- The product with `W₂` finishes `layer1`. -/
private theorem stage6 : val_main_v6 (F := Ideal) x adj w1 b1 w2 = layer1 adj (proj x w1) (rowOf b1) w2 := by
  funext i
  obtain ⟨g, n, f, rfl⟩ : ∃ (g : Fin 4096) (n : Fin 82) (f : Fin 15), i = ix3 g n f := ⟨i 0, i 1, i 2, eq_ix3 i⟩
  rw [val_main_v6_apply, layer1_apply]
  refine Finset.sum_congr rfl fun e _ => ?_
  rw [lidx6, ridx6, stage5]

/-! ## The second convolution and the flattening -/

/-- The second batched `dot_general` aggregates the first layer's output. -/
private theorem stage7 (g : Fin 4096) (n : Fin 82) (f : Fin 15) :
    val_main_v7 (F := Ideal) x adj w1 b1 w2 (ix3 g n f)
      = ∑ k : Fin 82, adj (ix3 g n k) * layer1 adj (proj x w1) (rowOf b1) w2 (ix3 g k f) := by
  rw [val_main_v7_apply, stage6]
  refine Finset.sum_congr rfl fun k _ => ?_
  rw [lidx7, ridx7]

/-- Adding the bias and rectifying gives `layer2`. -/
private theorem stage11 :
    val_main_v11 (F := Ideal) x adj w1 b1 w2 b2 = layer2 adj (layer1 adj (proj x w1) (rowOf b1) w2) (rowOf b2) := by
  funext i
  obtain ⟨g, n, f, rfl⟩ : ∃ (g : Fin 4096) (n : Fin 82) (f : Fin 15), i = ix3 g n f := ⟨i 0, i 1, i 2, eq_ix3 i⟩
  rw [val_main_v11_apply, val_main_v10_apply, stage7, bias9, zero1, Ideal.maximumf_def, Ideal.addf_def, layer2_apply]
  rfl

/-- The reshape is `flatten`. -/
private theorem stage12 :
    val_main_v12 (F := Ideal) x adj w1 b1 w2 b2
      = flatten (layer2 adj (layer1 adj (proj x w1) (rowOf b1) w2) (rowOf b2)) := by
  funext i
  obtain ⟨g, j, rfl⟩ : ∃ (g : Fin 4096) (j : Fin 1230), i = ix2 g j := ⟨i 0, i 1, eq_ix2 i⟩
  rw [val_main_v12_apply, stage11, flatten_apply, idx12]

/-! ## The dense head -/

/-- The hidden layer: the product with `F`, the bias, the rectifier. -/
private theorem stage17 (g : Fin 4096) (h : Fin 300) :
    val_main_v17 (F := Ideal) x adj w1 b1 w2 b2 fw fb (ix2 g h)
      = hidden (flatten (layer2 adj (layer1 adj (proj x w1) (rowOf b1) w2) (rowOf b2))) fw (rowOf fb) g h := by
  rw [val_main_v17_apply, val_main_v16_apply, val_main_v13_apply, stage12, bias15, zero2, Ideal.maximumf_def,
    Ideal.addf_def]
  unfold Cert.Gcn.hidden Cert.Gcn.relu
  refine congrArg (fun s => max (s + rowOf fb (ix2 (0 : Fin 1) h)) 0) (Finset.sum_congr rfl fun j _ => ?_)
  rw [lidx13, ridx13]

/-- The reference's last stage, as a function of the ten arguments, is the network. -/
theorem result_eq (x : Arr3 4096 82 10) (adj : Arr3 4096 82 82) (w1 : Arr2 10 15) (b1 : Arr1 15) (w2 : Arr2 15 15)
    (b2 : Arr1 15) (fw : Arr2 1230 300) (fb : Arr1 300) (ow : Arr2 300 29) (ob : Arr1 29) :
    val_main_v21 (F := Ideal) x adj w1 b1 w2 b2 fw fb ow ob = net x adj w1 b1 w2 b2 fw fb ow ob := by
  funext i
  obtain ⟨g, c, rfl⟩ : ∃ (g : Fin 4096) (c : Fin 29), i = ix2 g c := ⟨i 0, i 1, eq_ix2 i⟩
  unfold net
  rw [val_main_v21_apply, val_main_v18_apply, bias20, Ideal.addf_def, head_apply]
  refine congrArg (fun s => s + rowOf ob (ix2 (0 : Fin 1) c)) (Finset.sum_congr rfl fun h _ => ?_)
  rw [lidx18, ridx18, stage17]

end Cert.ReferenceIdeal.RefValue

end
-- ==== Proof.lean ====
/-
  The kernel and its reference compute one function.

  Both programs take a batch of 4096 graphs (node features 82×10, a dense 82×82 adjacency matrix each) through two
  graph convolutions `h ↦ relu (A · (h · W) + b)` and a two-layer dense head on the flattened node features. The
  kernel runs the network as four pipelined stages (`x · W₁`; `relu (A · t + b₁) · W₂`; `relu (A · t + b₂)`; the
  dense head), with narrower float formats between them; the reference is the same chain of products, sums and
  maxima on the host. On the extended reals a change of float format is the identity, a product into a zero
  accumulator is the plain finite sum, and the two programs associate their products the same way, so no law beyond
  reading both sides index by index is needed, and the finiteness of the inputs is never used.

  The kernel side: every weakly fair execution ends with the result buffer at the contents the last stage's
  write-backs leave (`RunValue`); those contents, walked back stage by stage through what each stage's output array
  holds after its last write-back (`Region0` … `Region3`) and through the host's reshapes (`Chain`), are the network
  `Cert.Gcn.net` of the ten arguments (`Spec`). The reference side: its run ends at the composed term of its
  operations, which read one operation at a time is the same network (`RefValue`). The three frames are the runs
  with the result dropped; the idealization rewrote nothing, so there is nothing to preserve.
-/
import proofs.«106284_g79757542687100_cont_9to1c4b_149_5_alg».proof.Defs
import proofs.«106284_g79757542687100_cont_9to1c4b_149_5_alg».proof.Proof.Gen.Kernel
import proofs.«106284_g79757542687100_cont_9to1c4b_149_5_alg».proof.Proof.Gen.Kernel.Skeleton
import proofs.«106284_g79757542687100_cont_9to1c4b_149_5_alg».proof.Proof.Gen.Kernel.Launch
import proofs.«106284_g79757542687100_cont_9to1c4b_149_5_alg».proof.Proof.Gen.Kernel.Points
import proofs.«106284_g79757542687100_cont_9to1c4b_149_5_alg».proof.Proof.Gen.Kernel.Frame
import proofs.«106284_g79757542687100_cont_9to1c4b_149_5_alg».proof.Proof.Gen.KernelIdeal
import proofs.«106284_g79757542687100_cont_9to1c4b_149_5_alg».proof.Proof.Gen.KernelIdeal.Skeleton
import proofs.«106284_g79757542687100_cont_9to1c4b_149_5_alg».proof.Proof.Gen.KernelIdeal.Launch
import proofs.«106284_g79757542687100_cont_9to1c4b_149_5_alg».proof.Proof.Gen.KernelIdeal.Points
import proofs.«106284_g79757542687100_cont_9to1c4b_149_5_alg».proof.Proof.Gen.KernelIdeal.Frame
import proofs.«106284_g79757542687100_cont_9to1c4b_149_5_alg».proof.Proof.Gen.ReferenceIdeal
import proofs.«106284_g79757542687100_cont_9to1c4b_149_5_alg».proof.Proof.Gen.ReferenceIdeal.Run
import proofs.«106284_g79757542687100_cont_9to1c4b_149_5_alg».proof.Proof.Gen.ReferenceIdeal.Read
import proofs.«106284_g79757542687100_cont_9to1c4b_149_5_alg».proof.Proof.Gen.Pre_finite_inputs
import proofs.«106284_g79757542687100_cont_9to1c4b_149_5_alg».proof.Proof.Spec
import proofs.«106284_g79757542687100_cont_9to1c4b_149_5_alg».proof.Proof.RunValue
import proofs.«106284_g79757542687100_cont_9to1c4b_149_5_alg».proof.Proof.Chain
import proofs.«106284_g79757542687100_cont_9to1c4b_149_5_alg».proof.Proof.Region0
import proofs.«106284_g79757542687100_cont_9to1c4b_149_5_alg».proof.Proof.Region1
import proofs.«106284_g79757542687100_cont_9to1c4b_149_5_alg».proof.Proof.Region2
import proofs.«106284_g79757542687100_cont_9to1c4b_149_5_alg».proof.Proof.Region3
import proofs.«106284_g79757542687100_cont_9to1c4b_149_5_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Gcn

/-- The kernel as printed runs to the end with its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the ten arguments both programs end with the network of those arguments in their
    result buffer: the kernel's last boundary contents walked back to the arguments, the reference's composed term
    read one operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono
      (fun r h c => ⟨(h c).1.trans (Cert.KernelIdeal.Chain.W6_v11 m ρ Cert.KernelIdeal.RegionValue.final0
        Cert.KernelIdeal.RegionValue.final1 Cert.KernelIdeal.RegionValue.final2 Cert.KernelIdeal.RegionValue.final3 c), (h c).2⟩)
      (Cert.KernelIdeal.RunValue.run_at_last_boundary (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.ReferenceIdeal.Read.val_main_v21_eq _ _ _ _ _ _ _ _ _ _).trans
    (Cert.ReferenceIdeal.RefValue.result_eq _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
